-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S256x64 : Shape := ⟨2, ![256, 64]⟩
abbrev S64 : Shape := ⟨1, ![64]⟩
abbrev S64x256 : Shape := ⟨2, ![64, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_arg5 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S262144 32 := broadcastInDim S262144 ![] bcast_S_S262144 main_c_8
  let main_v25 : IVec S262144 1 := cmpi .sge main_arg1 main_v24
  let main_c_9 : IVec S_ 32 := constantI S_ 32 8#32
  let main_v26 : IVec S262144 32 := broadcastInDim S262144 ![] bcast_S_S262144 main_c_9
  let main_v27 : IVec S262144 1 := cmpi .slt main_arg1 main_v26
  let main_v28 : IVec S262144 1 := andi main_v25 main_v27
  let main_c_10 : IVec S_ 1 := constantI S_ 1 1#1
  let main_v29 : IVec S_ 1 := (fun x v => Host.reduce IntOp.andi x v reducesTo_S262144_S_d0 h_S_) main_v28 main_c_10
  let main_v30 : IVec S_ 1 := andi main_v23 main_v29
  main_v30

def fn {F : FTy → Type} [FloatOps F] (main_arg0 : FVec F S262144x256 .f32) (main_arg1 : IVec S262144 32) (main_arg2 : FVec F S256x64 .f32) (main_arg3 : FVec F S64 .f32) (main_arg4 : FVec F S64x256 .f32) (main_arg5 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg1 main_arg5 main_v13 main_v16
-- ==== Kernel.lean ====
abbrev S262144x256 : Shape := ⟨2, ![262144, 256]⟩
abbrev S262144 : Shape := ⟨1, ![262144]⟩
abbrev S256x64 : Shape := ⟨2, ![256, 64]⟩
abbrev S64 : Shape := ⟨1, ![64]⟩
abbrev S64x256 : Shape := ⟨2, ![64, 256]⟩
abbrev S256 : Shape := ⟨1, ![256]⟩
abbrev S262144x1 : Shape := ⟨2, ![262144, 1]⟩
abbrev S8 : Shape := ⟨1, ![8]⟩
abbrev S1x8 : Shape := ⟨2, ![1, 8]⟩
abbrev S262144x8 : Shape := ⟨2, ![262144, 8]⟩
abbrev S2x8x256 : Shape := ⟨3, ![2, 8, 256]⟩
abbrev S8192x256 : Shape := ⟨2, ![8192, 256]⟩
abbrev S8192x8 : Shape := ⟨2, ![8192, 8]⟩
abbrev S1x8x256 : Shape := ⟨3, ![1, 8, 256]⟩
abbrev S8x256 : Shape := ⟨2, ![8, 256]⟩
abbrev S_ : Shape := ⟨0, ![]⟩
abbrev S8x1 : Shape := ⟨2, ![8, 1]⟩
abbrev S8x64 : Shape := ⟨2, ![8, 64]⟩
abbrev S1x64 : Shape := ⟨2, ![1, 64]⟩
abbrev S1x256 : Shape := ⟨2, ![1, 256]⟩
abbrev S4096x256 : Shape := ⟨2, ![4096, 256]⟩
abbrev S4096x8 : Shape := ⟨2, ![4096, 8]⟩

abbrev nBuf : Space → Nat
  | .hbm => 52
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S262144x1, .i32⟩
  | .hbm, ⟨7, _⟩ => ⟨S8, .i32⟩
  | .hbm, ⟨8, _⟩ => ⟨S1x8, .i32⟩
  | .hbm, ⟨9, _⟩ => ⟨S262144x8, .i32⟩
  | .hbm, ⟨10, _⟩ => ⟨S262144x8, .i32⟩
  | .hbm, ⟨11, _⟩ => ⟨S262144x8, .i1⟩
  | .hbm, ⟨12, _⟩ => ⟨S262144x8, .bf16⟩
  | .hbm, ⟨13, _⟩ => ⟨S2x8x256, .f32⟩
  | .hbm, ⟨14, _⟩ => ⟨S1x8x256, .f32⟩
  | .hbm, ⟨15, _⟩ => ⟨S8x256, .f32⟩
  | .hbm, ⟨16, _⟩ => ⟨S1x8x256, .f32⟩
  | .hbm, ⟨17, _⟩ => ⟨S8x256, .f32⟩
  | .hbm, ⟨18, _⟩ => ⟨S8x256, .f32⟩
  | .hbm, ⟨19, _⟩ => ⟨S262144x8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8x1, .f32⟩
  | .hbm, ⟨26, _⟩ => ⟨S8x256, .f32⟩
  | .hbm, ⟨27, _⟩ => ⟨S8x256, .f32⟩
  | .hbm, ⟨28, _⟩ => ⟨S8x64, .f32⟩
  | .hbm, ⟨29, _⟩ => ⟨S1x64, .f32⟩
  | .hbm, ⟨30, _⟩ => ⟨S8x64, .f32⟩
  | .hbm, ⟨31, _⟩ => ⟨S8x64, .f32⟩
  | .hbm, ⟨32, _⟩ => ⟨S_, .f32⟩
  | .hbm, ⟨33, _⟩ => ⟨S8x64, .f32⟩
  | .hbm, ⟨34, _⟩ => ⟨S8x64, .f32⟩
  | .hbm, ⟨35, _⟩ => ⟨S8x256, .f32⟩
  | .hbm, ⟨36, _⟩ => ⟨S1x256, .f32⟩
  | .hbm, ⟨37, _⟩ => ⟨S8x256, .f32⟩
  | .hbm, ⟨38, _⟩ => ⟨S8x256, .f32⟩
  | .hbm, ⟨39, _⟩ => ⟨S8x256, .f32⟩
  | .hbm, ⟨40, _⟩ => ⟨S8x256, .f32⟩
  | .hbm, ⟨41, _⟩ => ⟨S_, .f32⟩
  | .hbm, ⟨42, _⟩ => ⟨S8x256, .f32⟩
  | .hbm, ⟨43, _⟩ => ⟨S8x256, .f32⟩
  | .hbm, ⟨44, _⟩ => ⟨S_, .f32⟩
  | .hbm, ⟨45, _⟩ => ⟨S8x256, .f32⟩
  | .hbm, ⟨46, _⟩ => ⟨S8x256, .f32⟩
  | .hbm, ⟨47, _⟩ => ⟨S8x256, .bf16⟩
  | .hbm, ⟨48, _⟩ => ⟨S8x256, .f32⟩
  | .hbm, ⟨49, _⟩ => ⟨S8x256, .f32⟩
  | .hbm, ⟨50, _⟩ => ⟨S8x256, .bf16⟩
  | .hbm, ⟨51, _⟩ => ⟨S262144x256, .f32⟩
  | .local _ .vmem, ⟨0, _⟩ => ⟨S8192x256, .f32⟩
  | .local _ .vmem, ⟨1, _⟩ => ⟨S8192x256, .f32⟩
  | .local _ .vmem, ⟨2, _⟩ => ⟨S8192x8, .bf16⟩
  | .local _ .vmem, ⟨3, _⟩ => ⟨S8192x8, .bf16⟩
  | .local _ .vmem, ⟨4, _⟩ => ⟨S1x8x256, .f32⟩
  | .local _ .vmem, ⟨5, _⟩ => ⟨S1x8x256, .f32⟩
  | .local _ .vmem, ⟨6, _⟩ => ⟨S4096x256, .f32⟩
  | .local _ .vmem, ⟨7, _⟩ => ⟨S4096x256, .f32⟩
  | .local _ .vmem, ⟨8, _⟩ => ⟨S4096x8, .bf16⟩
  | .local _ .vmem, ⟨9, _⟩ => ⟨S4096x8, .bf16⟩
  | .local _ .vmem, ⟨10, _⟩ => ⟨S8x256, .bf16⟩
  | .local _ .vmem, ⟨11, _⟩ => ⟨S8x256, .bf16⟩
  | .local _ .vmem, ⟨12, _⟩ => ⟨S4096x256, .f32⟩
  | .local _ .vmem, ⟨13, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x8 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S262144_S262144x1_0 : S262144.BroadcastsInDim S262144x1 (![0] : Fin 1 → Fin S262144x1.rank)
  bcast_S8_S1x8_1 : S8.BroadcastsInDim S1x8 (![1] : Fin 1 → Fin S1x8.rank)
  bcast_S262144x1_S262144x8_0_1 : S262144x1.BroadcastsInDim S262144x8 (![0, 1] : Fin 2 → Fin S262144x8.rank)
  bcast_S1x8_S262144x8_0_1 : S1x8.BroadcastsInDim S262144x8 (![0, 1] : Fin 2 → Fin S262144x8.rank)
  inb_S1x8x256_S1x8x256_0_0_0 : ∀ a, (![0, 0, 0] : Fin 3 → Nat) a + S1x8x256.size a ≤ S1x8x256.size a
  h_S1x8x256 : 0 < S1x8x256.numel
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  shapeCasts_S1x8x256_S8x256 : S1x8x256.ShapeCasts S8x256
  shapeCasts_S8x256_S1x8x256 : S8x256.ShapeCasts S1x8x256
  slices_S2x8x256_S1x8x256_0_0_0 : S2x8x256.Slices ![0, 0, 0] S1x8x256
  slices_S2x8x256_S1x8x256_1_0_0 : S2x8x256.Slices ![1, 0, 0] S1x8x256
  reducesTo_S262144x8_S8_d0 : S262144x8.ReducesTo [0] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S4096x256_S4096x256_0_0 : ∀ a, (![0, 0] : Fin 2 → Nat) a + S4096x256.size a ≤ S4096x256.size a
  h_S4096x256 : 0 < S4096x256.numel
  dot_S8192x8_S8192x256_S8x256_0_0_1_1_n_n_wf : DotDims.WF S8192x8 S8192x256 S8x256 [0] [0] [1] [1] [] []
  dot_S8x256_S256x64_S8x64_1_0_0_1_n_n_wf : DotDims.WF S8x256 S256x64 S8x64 [1] [0] [0] [1] [] []
  dot_S8x64_S64x256_S8x256_1_0_0_1_n_n_wf : DotDims.WF S8x64 S64x256 S8x256 [1] [0] [0] [1] [] []
  dot_S4096x8_S8x256_S4096x256_1_0_0_1_n_n_wf : DotDims.WF S4096x8 S8x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S262144x8.size a
  hwx0_1 : ∀ i : grid0.Coords, EltTy.bits .bf16 = 32 ∨ (Rect.block (s := S262144x8) S8192x8.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S2x8x256.size a
  hwx0_2 : ∀ i : grid0.Coords, EltTy.bits .f32 = 32 ∨ (Rect.block (s := S2x8x256) S1x8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x8.size a ≤ S262144x8.size a
  hwx1_1 : ∀ i : grid1.Coords, EltTy.bits .bf16 = 32 ∨ (Rect.block (s := S262144x8) S4096x8.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x256.size a
  hwx1_2 : ∀ i : grid1.Coords, EltTy.bits .bf16 = 32 ∨ (Rect.block (s := S8x256) S8x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x256.size a
  hwx1_3 : ∀ i : grid1.Coords, EltTy.bits .bf16 = 32 ∨ (Rect.block (s := S8x256) S8x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S262144x256.size a
  hwx1_4 : ∀ i : grid1.Coords, EltTy.bits .f32 = 32 ∨ (Rect.block (s := S262144x256) S4096x256.size (cc1_transform_4 i) (hinb1_4 i)).WholeWords (EltTy.packing .f32)

variable [Facts₀]

def dot_S8192x8_S8192x256_S8x256_0_0_1_1_n_n : DotDims S8192x8 S8192x256 S8x256 where
  lhsContracting := [0]
  rhsContracting := [0]
  lhsNonContracting := [1]
  rhsNonContracting := [1]
  lhsBatch := []
  rhsBatch := []
  wf := dot_S8192x8_S8192x256_S8x256_0_0_1_1_n_n_wf
def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S8x64_S64x256_S8x256_1_0_0_1_n_n : DotDims S8x64 S64x256 S8x256 where
  lhsContracting := [1]
  rhsContracting := [0]
  lhsNonContracting := [0]
  rhsNonContracting := [1]
  lhsBatch := []
  rhsBatch := []
  wf := dot_S8x64_S64x256_S8x256_1_0_0_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S8x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S8x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S4096x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S256x64 : Shape := ⟨2, ![256, 64]⟩
abbrev S64 : Shape := ⟨1, ![64]⟩
abbrev S64x256 : Shape := ⟨2, ![64, 256]⟩
abbrev S256 : Shape := ⟨1, ![256]⟩
abbrev S_ : Shape := ⟨0, ![]⟩
abbrev S8x256 : Shape := ⟨2, ![8, 256]⟩
abbrev S262144x1 : Shape := ⟨2, ![262144, 1]⟩
abbrev S8 : Shape := ⟨1, ![8]⟩
abbrev S8x1 : Shape := ⟨2, ![8, 1]⟩
abbrev S8x64 : Shape := ⟨2, ![8, 64]⟩
abbrev S1x64 : Shape := ⟨2, ![1, 64]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256x64, .f32⟩
  | .hbm, ⟨3, _⟩ => ⟨S64, .f32⟩
  | .hbm, ⟨4, _⟩ => ⟨S64x256, .f32⟩
  | .hbm, ⟨5, _⟩ => ⟨S256, .f32⟩
  | .hbm, ⟨6, _⟩ => ⟨S_, .f32⟩
  | .hbm, ⟨7, _⟩ => ⟨S8x256, .f32⟩
  | .hbm, ⟨8, _⟩ => ⟨S262144x1, .i32⟩
  | .hbm, ⟨9, _⟩ => ⟨S8x256, .f32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S8, .f32⟩
  | .hbm, ⟨14, _⟩ => ⟨S262144x1, .i32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8x256, .f32⟩
  | .hbm, ⟨21, _⟩ => ⟨S8x256, .f32⟩
  | .hbm, ⟨22, _⟩ => ⟨S8x64, .f32⟩
  | .hbm, ⟨23, _⟩ => ⟨S1x64, .f32⟩
  | .hbm, ⟨24, _⟩ => ⟨S8x64, .f32⟩
  | .hbm, ⟨25, _⟩ => ⟨S8x64, .f32⟩
  | .hbm, ⟨26, _⟩ => ⟨S_, .f32⟩
  | .hbm, ⟨27, _⟩ => ⟨S8x64, .f32⟩
  | .hbm, ⟨28, _⟩ => ⟨S8x64, .f32⟩
  | .hbm, ⟨29, _⟩ => ⟨S8x256, .f32⟩
  | .hbm, ⟨30, _⟩ => ⟨S1x256, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S8x256, .f32⟩
  | .hbm, ⟨35, _⟩ => ⟨S_, .f32⟩
  | .hbm, ⟨36, _⟩ => ⟨S8x256, .f32⟩
  | .hbm, ⟨37, _⟩ => ⟨S8x256, .f32⟩
  | .hbm, ⟨38, _⟩ => ⟨S_, .f32⟩
  | .hbm, ⟨39, _⟩ => ⟨S8x256, .f32⟩
  | .hbm, ⟨40, _⟩ => ⟨S8x256, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x256, .f32⟩
  | .hbm, ⟨50, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  scatter_S8x256_S262144x1_S262144x256_1_0_0_1_wf : ScatterDims.WF S8x256 S262144x1 S262144x256 [1] [0] [0] 1
  scatter_S8_S262144x1_S262144_n_0_0_1_wf : ScatterDims.WF S8 S262144x1 S262144 [] [0] [0] 1
  dot_S8x256_S256x64_S8x64_1_0_0_1_n_n_wf : DotDims.WF S8x256 S256x64 S8x64 [1] [0] [0] [1] [] []
  dot_S8x64_S64x256_S8x256_1_0_0_1_n_n_wf : DotDims.WF S8x64 S64x256 S8x256 [1] [0] [0] [1] [] []
  gather_S8x256_S262144x1_S262144x256_1_0_n_n_0_1_1256_wf : GatherDims.WF S8x256 S262144x1 S262144x256 [1] [0] [] [0] [] 1 ![1, 256]

variable [Facts₀]

def scatter_S8x256_S262144x1_S262144x256_1_0_0_1 : ScatterDims S8x256 S262144x1 S262144x256 where
  updateWindowDims := [1]
  insertedWindowDims := [0]
  scatterDimsToOperandDims := [0]
  indexVectorDim := 1
  wf := scatter_S8x256_S262144x1_S262144x256_1_0_0_1_wf
def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf
def dot_S8x256_S256x64_S8x64_1_0_0_1_n_n : DotDims S8x256 S256x64 S8x64 where
  lhsContracting := [1]
  rhsContracting := [0]
  lhsNonContracting := [0]
  rhsNonContracting := [1]
  lhsBatch := []
  rhsBatch := []
  wf := dot_S8x256_S256x64_S8x64_1_0_0_1_n_n_wf
def dot_S8x64_S64x256_S8x256_1_0_0_1_n_n : DotDims S8x64 S64x256 S8x256 where
  lhsContracting := [1]
  rhsContracting := [0]
  lhsNonContracting := [0]
  rhsNonContracting := [1]
  lhsBatch := []
  rhsBatch := []
  wf := dot_S8x64_S64x256_S8x256_1_0_0_1_n_n_wf
def gather_S8x256_S262144x1_S262144x256_1_0_n_n_0_1_1256 : GatherDims S8x256 S262144x1 S262144x256 where
  offsetDims := [1]
  collapsedSliceDims := [0]
  operandBatchingDims := []
  startIndicesBatchingDims := []
  startIndexMap := [0]
  indexVectorDim := 1
  sliceSizes := ![1, 256]
  wf := gather_S8x256_S262144x1_S262144x256_1_0_n_n_0_1_1256_wf

class Facts : Prop extends Facts₀ where

variable [Facts]
-- ==== Proof.Spec.lean ====
/-
  The mathematics of the squeeze-and-excite layer over a batched point set, stated once, index by index.

  For features `x : [262144, 256]`, batch ids `ids : [262144]` (words) and the two small dense layers:
  * `oneHot ids` is the membership table: row `n`, column `b` is one when `ids n` is the word `b`, else zero;
  * `segSumAt x ids b j` is the sum of column `j` over the rows whose id, read signed, is `b`, and `segCountAt ids b` the
    number of such rows;
  * `gate S C W1 b1 W2 b2` is the excitation: the per-batch mean `S / max C 1`, a dense layer and a rectifier, a second dense
    layer and the logistic function `1 / (1 + exp (-z))`;
  * `resultAt` is the layer's value: row `n` of `x` scaled, column by column, by the gate's row of that row's batch.
  Intermediate functions are named as well: `tileSumAt` (the same sums over one tile of 8192 rows), `halfSumAt` (the membership-weighted column sums over one
  half of the rows) and `bcastMulAt` (the gate's row picked by two membership-weighted sums over the eight batches, the
  second over a correction term, then the product with `x`).
-/
import proofs.«429100_j40699110096955_3_alg».proof.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal

variable [Cert.KernelIdeal.Facts₀]
open Cert.KernelIdeal.Facts₀

section AnyInstance
variable {F : FTy → Type} [FloatOps F]

/-- The membership table of the ids against the eight batch numbers, as a float array of zeros and ones. -/
def oneHot (ids : IVec S262144 32) : FVec F S262144x8 .bf16 :=
  uitofp .bf16 (cmpi .eq
    (broadcastInDim S262144x8 ![0, 1] bcast_S262144x1_S262144x8_0_1 (broadcastInDim S262144x1 ![0] bcast_S262144_S262144x1_0 ids))
    (broadcastInDim S262144x8 ![0, 1] bcast_S1x8_S262144x8_0_1 (broadcastInDim S1x8 ![1] bcast_S8_S1x8_1 (iotaInDim S8 32 0))))

/-- The excitation gate of per-batch sums `S` and counts `C`: mean, dense layer, rectifier, dense layer, logistic. -/
def gate (S : FVec F S8x256 .f32) (C : FVec F S8 .f32) (W1 : FVec F S256x64 .f32) (b1 : FVec F S64 .f32)
    (W2 : FVec F S64x256 .f32) (b2 : FVec F S256 .f32) : FVec F S8x256 .f32 :=
  Host.divf (broadcastInDim S8x256 ![] bcast_S_S8x256 (constant S_ .f32 0x3F800000#32))
    (addf (broadcastInDim S8x256 ![] bcast_S_S8x256 (constant S_ .f32 0x3F800000#32))
      (Host.exp (Host.negf (addf
        (Host.dotGeneral dot_S8x64_S64x256_S8x256_1_0_0_1_n_n none
          (maximumf
            (addf
              (Host.dotGeneral dot_S8x256_S256x64_S8x64_1_0_0_1_n_n none
                (Host.divf S (broadcastInDim S8x256 ![0, 1] bcast_S8x1_S8x256_0_1 (broadcastInDim S8x1 ![0] bcast_S8_S8x1_0
                  (maximumf C (broadcastInDim S8 ![] bcast_S_S8 (constant S_ .f32 0x3F800000#32))))))
                W1)
              (broadcastInDim S8x64 ![0, 1] bcast_S1x64_S8x64_0_1 (broadcastInDim S1x64 ![1] bcast_S64_S1x64_1 b1)))
            (broadcastInDim S8x64 ![] bcast_S_S8x64 (constant S_ .f32 0x00000000#32)))
          W2)
        (broadcastInDim S8x256 ![0, 1] bcast_S1x256_S8x256_0_1 (broadcastInDim S1x256 ![1] bcast_S256_S1x256_1 b2))))))

end AnyInstance

/-! ## Over the extended reals -/

/-- Column `j` summed over the rows whose id, read signed, is `b`. -/
def segSumAt (x : FVec Ideal S262144x256 .f32) (ids : IVec S262144 32) (b : Fin 8) (j : Fin 256) : EReal :=
  ∑ n : Fin 262144, if (ids (ix1 n)).toInt = (b.val : Int) then x (ix2 n j) else 0

/-- The per-batch column sums as an array. -/
def segSums (x : FVec Ideal S262144x256 .f32) (ids : IVec S262144 32) : FVec Ideal S8x256 .f32 :=
  fun i => segSumAt x ids ⟨(i 0).val, idx2_lt0 i⟩ ⟨(i 1).val, idx2_lt1 i⟩

theorem segSums_apply (x : FVec Ideal S262144x256 .f32) (ids : IVec S262144 32) (b : Fin 8) (j : Fin 256) :
    segSums x ids (ix2 b j) = segSumAt x ids b j := rfl

/-- The number of rows whose id, read signed, is `b`. -/
def segCountAt (ids : IVec S262144 32) (b : Fin 8) : EReal :=
  ∑ n : Fin 262144, if (ids (ix1 n)).toInt = (b.val : Int) then (1 : EReal) else 0

/-- The per-batch counts as an array. -/
def segCounts (ids : IVec S262144 32) : FVec Ideal S8 .f32 :=
  fun i => segCountAt ids ⟨(i 0).val, (i 0).isLt⟩

theorem segCounts_apply (ids : IVec S262144 32) (b : Fin 8) : segCounts ids (ix1 b) = segCountAt ids b := rfl

/-- The batch number a word names once it is known to lie in `[0, 8)`. -/
def rowOf (w : BitVec 32) : Fin 8 := ⟨w.toNat % 8, Nat.mod_lt _ (by decide)⟩

/-- The layer's value at row `n`, column `j`: the gate's entry for that row's batch, times the feature. -/
def resultAt (x : FVec Ideal S262144x256 .f32) (ids : IVec S262144 32) (W1 : FVec Ideal S256x64 .f32) (b1 : FVec Ideal S64 .f32)
    (W2 : FVec Ideal S64x256 .f32) (b2 : FVec Ideal S256 .f32) (n : Fin 262144) (j : Fin 256) : EReal :=
  gate (segSums x ids) (segCounts ids) W1 b1 W2 b2 (ix2 (rowOf (ids (ix1 n))) j) * x (ix2 n j)

/-- The layer's value as an array. -/
def result (x : FVec Ideal S262144x256 .f32) (ids : IVec S262144 32) (W1 : FVec Ideal S256x64 .f32) (b1 : FVec Ideal S64 .f32)
    (W2 : FVec Ideal S64x256 .f32) (b2 : FVec Ideal S256 .f32) : FVec Ideal S262144x256 .f32 :=
  fun i => resultAt x ids W1 b1 W2 b2 ⟨(i 0).val, idx2_lt0 i⟩ ⟨(i 1).val, idx2_lt1 i⟩

theorem result_apply (x : FVec Ideal S262144x256 .f32) (ids : IVec S262144 32) (W1 : FVec Ideal S256x64 .f32) (b1 : FVec Ideal S64 .f32)
    (W2 : FVec Ideal S64x256 .f32) (b2 : FVec Ideal S256 .f32) (n : Fin 262144) (j : Fin 256) :
    result x ids W1 b1 W2 b2 (ix2 n j) = resultAt x ids W1 b1 W2 b2 n j := rfl

/-- Tile `s` of the rows (the 8192 rows from row `8192 s` on): the membership-weighted sum of column `j` for batch `b`;
    a row past the array's end counts for nothing. -/
def tileSumAt (x : FVec Ideal S262144x256 .f32) (oh : FVec Ideal S262144x8 .bf16) (s : ℕ) (b : Fin 8) (j : Fin 256) : EReal :=
  ∑ r : Fin 8192, if h : 8192 * s + r.val < 262144 then oh (ix2 (⟨8192 * s + r.val, h⟩ : Fin 262144) b) * x (ix2 (⟨8192 * s + r.val, h⟩ : Fin 262144) j) else 0

/-- Half `h` of the rows: the membership-weighted sum of column `j` for batch `b`. -/
def halfSumAt (x : FVec Ideal S262144x256 .f32) (oh : FVec Ideal S262144x8 .bf16) (h : Fin 2) (b : Fin 8) (j : Fin 256) : EReal :=
  ∑ n : Fin 131072,
    oh (ix2 (⟨131072 * h.val + n.val, by have := h.isLt; have := n.isLt; omega⟩ : Fin 262144) b)
      * x (ix2 (⟨131072 * h.val + n.val, by have := h.isLt; have := n.isLt; omega⟩ : Fin 262144) j)

/-- The two halves' sums as an array `[2, 8, 256]`. -/
def halfSums (x : FVec Ideal S262144x256 .f32) (oh : FVec Ideal S262144x8 .bf16) : FVec Ideal S2x8x256 .f32 :=
  fun i => halfSumAt x oh ⟨(i 0).val, (i 0).isLt⟩ ⟨(i 1).val, (i 1).isLt⟩ ⟨(i 2).val, (i 2).isLt⟩

theorem halfSums_apply (x : FVec Ideal S262144x256 .f32) (oh : FVec Ideal S262144x8 .bf16) (h : Fin 2) (b : Fin 8) (j : Fin 256) :
    halfSums x oh (ix3 h b j) = halfSumAt x oh h b j := rfl

/-- Row `n`, column `j`: the two membership-weighted sums over the batches, added, times the feature. -/
def bcastMulAt (x : FVec Ideal S262144x256 .f32) (oh : FVec Ideal S262144x8 .bf16) (yh yl : FVec Ideal S8x256 .bf16)
    (n : Fin 262144) (j : Fin 256) : EReal :=
  ((∑ b : Fin 8, oh (ix2 n b) * yh (ix2 b j)) + ∑ b : Fin 8, oh (ix2 n b) * yl (ix2 b j)) * x (ix2 n j)

/-- The same as an array. -/
def bcastMul (x : FVec Ideal S262144x256 .f32) (oh : FVec Ideal S262144x8 .bf16) (yh yl : FVec Ideal S8x256 .bf16) :
    FVec Ideal S262144x256 .f32 :=
  fun i => bcastMulAt x oh yh yl ⟨(i 0).val, idx2_lt0 i⟩ ⟨(i 1).val, idx2_lt1 i⟩

theorem bcastMul_apply (x : FVec Ideal S262144x256 .f32) (oh : FVec Ideal S262144x8 .bf16) (yh yl : FVec Ideal S8x256 .bf16)
    (n : Fin 262144) (j : Fin 256) : bcastMul x oh yh yl (ix2 n j) = bcastMulAt x oh yh yl n j := rfl

end Cert.KernelIdeal.Spec

end
-- ==== Proof.SpecHost.lean ====
/-
  The host arithmetic between the two kernel launches, named piece by piece.

  From the two halves' partial sums `P : [2, 8, 256]` the per-batch sums are `P[0] + P[1]` (`sumsOf`); from the
  membership table the per-batch counts are its column sums (`countsOf`); the excitation gate is a first dense layer on
  the means (`dense1`), a rectifier, and a second dense layer followed by the logistic function (`dense2`).
  `gate_eq` says the gate of `Spec` is their composition.
-/
import proofs.«429100_j40699110096955_3_alg».proof.Proof.Spec

noncomputable section

namespace Cert.KernelIdeal.Spec

open Idealize.ShloMosaic Idealize.ShloMosaic.ValueIdx Cert.KernelIdeal

variable [Cert.KernelIdeal.Facts₀]
open Cert.KernelIdeal.Facts₀

variable {F : FTy → Type} [FloatOps F]

/-- The per-batch sums: the first half's partial sums plus the second half's. -/
def sumsOf (P : FVec F S2x8x256 .f32) : FVec F S8x256 .f32 :=
  addf (shapeCast S8x256 (extractStridedSlice S1x8x256 ![0, 0, 0] P slices_S2x8x256_S1x8x256_0_0_0) shapeCasts_S1x8x256_S8x256)
    (shapeCast S8x256 (extractStridedSlice S1x8x256 ![1, 0, 0] P slices_S2x8x256_S1x8x256_1_0_0) shapeCasts_S1x8x256_S8x256)

/-- The per-batch counts: the membership table's column sums. -/
def countsOf (OH : FVec F S262144x8 .bf16) : FVec F S8 .f32 :=
  Host.reduceAdd (extf .f32 OH bitsLt_bf16_f32) (constant S_ .f32 0x00000000#32) reducesTo_S262144x8_S8_d0 h_S_

/-- The first dense layer on the per-batch means `S / max C 1`. -/
def dense1 (S : FVec F S8x256 .f32) (C : FVec F S8 .f32) (W1 : FVec F S256x64 .f32) (b1 : FVec F S64 .f32) : FVec F S8x64 .f32 :=
  addf
    (Host.dotGeneral dot_S8x256_S256x64_S8x64_1_0_0_1_n_n none
      (Host.divf S (broadcastInDim S8x256 ![0, 1] bcast_S8x1_S8x256_0_1 (broadcastInDim S8x1 ![0] bcast_S8_S8x1_0
        (maximumf C (broadcastInDim S8 ![] bcast_S_S8 (constant S_ .f32 0x3F800000#32))))))
      W1)
    (broadcastInDim S8x64 ![0, 1] bcast_S1x64_S8x64_0_1 (broadcastInDim S1x64 ![1] bcast_S64_S1x64_1 b1))

/-- The rectifier. -/
def rectify (H : FVec F S8x64 .f32) : FVec F S8x64 .f32 :=
  maximumf H (broadcastInDim S8x64 ![] bcast_S_S8x64 (constant S_ .f32 0x00000000#32))

/-- The second dense layer and the logistic function `1 / (1 + exp (-z))`. -/
def dense2 (H : FVec F S8x64 .f32) (W2 : FVec F S64x256 .f32) (b2 : FVec F S256 .f32) : FVec F S8x256 .f32 :=
  Host.divf (broadcastInDim S8x256 ![] bcast_S_S8x256 (constant S_ .f32 0x3F800000#32))
    (addf (broadcastInDim S8x256 ![] bcast_S_S8x256 (constant S_ .f32 0x3F800000#32))
      (Host.exp (Host.negf (addf
        (Host.dotGeneral dot_S8x64_S64x256_S8x256_1_0_0_1_n_n none H W2)
        (broadcastInDim S8x256 ![0, 1] bcast_S1x256_S8x256_0_1 (broadcastInDim S1x256 ![1] bcast_S256_S1x256_1 b2))))))

/-- The gate is the composition of its three pieces. -/
theorem gate_eq (S : FVec F S8x256 .f32) (C : FVec F S8 .f32) (W1 : FVec F S256x64 .f32) (b1 : FVec F S64 .f32)
    (W2 : FVec F S64x256 .f32) (b2 : FVec F S256 .f32) :
    gate S C W1 b1 W2 b2 = dense2 (rectify (dense1 S C W1 b1)) W2 b2 := rfl

end Cert.KernelIdeal.Spec

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.HostK.lean ====
/-
  What the host stretches of the idealized kernel program leave in the buffers the two launches and the result read.

  Each stretch is read over ANY contents `Wv` it starts from: the first stretch builds the membership table from the
  ids; the stretch after the first launch forms the per-batch sums and counts and the first dense layer; the called
  rectifier; the last stretch the second dense layer, the logistic function, and the two-term split of the gate
  (`y` narrowed, and `y` minus its narrowed self, narrowed). Buffers a stretch does not write keep their contents.
  Folded through the boundaries of the run, they give the four input arrays of the second launch as functions of the
  program's arguments and of what the first launch leaves.
-/
import proofs.«429100_j40699110096955_3_alg».proof.Proof.SpecHost
import proofs.«429100_j40699110096955_3_alg».proof.Proof.LibTRefCast
import proofs.«429100_j40699110096955_3_alg».proof.Proof.Gen.KernelIdeal.Frame
import Idealize.ShloMosaic.Lib.StableHlo.Run

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen

variable {F : FTy → Type} [FloatOps F]

/-! ## Each stretch over any starting contents -/

section Stretches
variable (Wv : Valuation τ sig (Elt F))

theorem ops0_arg0 : StableHlo.after hostOps0 Wv (Proc.devRef .tc main_arg0) = Wv (Proc.devRef .tc main_arg0) := by
  dsimp only [hostOps0]; after_results
theorem ops0_arg2 : StableHlo.after hostOps0 Wv (Proc.devRef .tc main_arg2) = Wv (Proc.devRef .tc main_arg2) := by
  dsimp only [hostOps0]; after_results
theorem ops0_arg3 : StableHlo.after hostOps0 Wv (Proc.devRef .tc main_arg3) = Wv (Proc.devRef .tc main_arg3) := by
  dsimp only [hostOps0]; after_results
theorem ops0_arg4 : StableHlo.after hostOps0 Wv (Proc.devRef .tc main_arg4) = Wv (Proc.devRef .tc main_arg4) := by
  dsimp only [hostOps0]; after_results
theorem ops0_arg5 : StableHlo.after hostOps0 Wv (Proc.devRef .tc main_arg5) = Wv (Proc.devRef .tc main_arg5) := by
  dsimp only [hostOps0]; after_results
theorem ops0_v6 : StableHlo.after hostOps0 Wv (Proc.devRef .tc main_v6) = Spec.oneHot (Wv (Proc.devRef .tc main_arg1)) := by
  dsimp only [hostOps0]; after_results; rfl

theorem ops1_arg0 : StableHlo.after hostOps1 Wv (Proc.devRef .tc main_arg0) = Wv (Proc.devRef .tc main_arg0) := by
  dsimp only [hostOps1]; after_results
theorem ops1_arg4 : StableHlo.after hostOps1 Wv (Proc.devRef .tc main_arg4) = Wv (Proc.devRef .tc main_arg4) := by
  dsimp only [hostOps1]; after_results
theorem ops1_arg5 : StableHlo.after hostOps1 Wv (Proc.devRef .tc main_arg5) = Wv (Proc.devRef .tc main_arg5) := by
  dsimp only [hostOps1]; after_results
theorem ops1_v6 : StableHlo.after hostOps1 Wv (Proc.devRef .tc main_v6) = Wv (Proc.devRef .tc main_v6) := by
  dsimp only [hostOps1]; after_results
theorem ops1_v23 : StableHlo.after hostOps1 Wv (Proc.devRef .tc main_v23)
    = Spec.dense1 (Spec.sumsOf (Wv (Proc.devRef .tc main_v7))) (Spec.countsOf (Wv (Proc.devRef .tc main_v6)))
        (Wv (Proc.devRef .tc main_arg2)) (Wv (Proc.devRef .tc main_arg3)) := by
  dsimp only [hostOps1]; after_results; rfl

theorem ops11_arg0 : StableHlo.after hostOps1_1 Wv (Proc.devRef .tc main_arg0) = Wv (Proc.devRef .tc main_arg0) := by
  dsimp only [hostOps1_1]; after_results
theorem ops11_arg4 : StableHlo.after hostOps1_1 Wv (Proc.devRef .tc main_arg4) = Wv (Proc.devRef .tc main_arg4) := by
  dsimp only [hostOps1_1]; after_results
theorem ops11_arg5 : StableHlo.after hostOps1_1 Wv (Proc.devRef .tc main_arg5) = Wv (Proc.devRef .tc main_arg5) := by
  dsimp only [hostOps1_1]; after_results
theorem ops11_v6 : StableHlo.after hostOps1_1 Wv (Proc.devRef .tc main_v6) = Wv (Proc.devRef .tc main_v6) := by
  dsimp only [hostOps1_1]; after_results
theorem ops11_v24 : StableHlo.after hostOps1_1 Wv (Proc.devRef .tc main_v24) = Spec.rectify (Wv (Proc.devRef .tc main_v23)) := by
  dsimp only [hostOps1_1]; after_results
  simp only [TRef.ofBuf_toBuf]
  rfl

theorem ops12_arg0 : StableHlo.after hostOps1_2 Wv (Proc.devRef .tc main_arg0) = Wv (Proc.devRef .tc main_arg0) := by
  dsimp only [hostOps1_2]; after_results
theorem ops12_v6 : StableHlo.after hostOps1_2 Wv (Proc.devRef .tc main_v6) = Wv (Proc.devRef .tc main_v6) := by
  dsimp only [hostOps1_2]; after_results
theorem ops12_v35 : StableHlo.after hostOps1_2 Wv (Proc.devRef .tc main_v35)
    = truncf .bf16 (Spec.dense2 (Wv (Proc.devRef .tc main_v24)) (Wv (Proc.devRef .tc main_arg4)) (Wv (Proc.devRef .tc main_arg5))) bitsLt_bf16_f32 := by
  dsimp only [hostOps1_2]; after_results; rfl
theorem ops12_v38 : StableHlo.after hostOps1_2 Wv (Proc.devRef .tc main_v38)
    = truncf .bf16 (subf
        (Spec.dense2 (Wv (Proc.devRef .tc main_v24)) (Wv (Proc.devRef .tc main_arg4)) (Wv (Proc.devRef .tc main_arg5)))
        (extf .f32 (truncf .bf16 (Spec.dense2 (Wv (Proc.devRef .tc main_v24)) (Wv (Proc.devRef .tc main_arg4)) (Wv (Proc.devRef .tc main_arg5))) bitsLt_bf16_f32) bitsLt_bf16_f32))
      bitsLt_bf16_f32 := by
  dsimp only [hostOps1_2]; after_results; rfl

end Stretches

/-! ## Folded through the run's boundaries -/

variable (m : (ℓ : Loc nD τ sig) → Buf (Elt F) ℓ) (ρ : Dev nD → PrngReg)

/-- The features as the first launch finds them: as launched. -/
theorem V1_arg0 (c : Dev nD) : V1 m ρ c main_arg0 = m ((c : Thread nD τ).loc main_arg0) := ops0_arg0 (W0 m ρ c)
/-- The membership table as the first launch finds it: the table of the ids as launched. -/
theorem V1_v6 (c : Dev nD) : V1 m ρ c main_v6 = Spec.oneHot (m ((c : Thread nD τ).loc main_arg1)) := ops0_v6 (W0 m ρ c)

/-- After the first launch: its two input arrays as it found them, its output at what its write-backs leave, the
    other arguments as launched. -/
theorem W2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_arg0 m ρ c)))
theorem W2_v6 (c : Dev nD) : W2 m ρ c (Proc.devRef .tc main_v6) = Spec.oneHot (m ((c : Thread nD τ).loc main_arg1)) :=
  (W2_arr m ρ c 1).trans (((dat0 (V1 m ρ) c).arrAt_in 1 rfl _).trans ((A_eq0 (V1 m ρ) c 1).trans (V1_v6 m ρ c)))
theorem W2_v7 (c : Dev nD) : W2 m ρ c (Proc.devRef .tc main_v7) = (dat0 (V1 m ρ) c).arrAt 2 cfg0.N := W2_arr m ρ c 2
theorem W2_arg2 (c : Dev nD) : W2 m ρ c (Proc.devRef .tc main_arg2) = m ((c : Thread nD τ).loc main_arg2) :=
  (W2_of_ne m ρ c main_arg2 (by decide)).trans (ops0_arg2 (W0 m ρ c))
theorem W2_arg3 (c : Dev nD) : W2 m ρ c (Proc.devRef .tc main_arg3) = m ((c : Thread nD τ).loc main_arg3) :=
  (W2_of_ne m ρ c main_arg3 (by decide)).trans (ops0_arg3 (W0 m ρ c))
theorem W2_arg4 (c : Dev nD) : W2 m ρ c (Proc.devRef .tc main_arg4) = m ((c : Thread nD τ).loc main_arg4) :=
  (W2_of_ne m ρ c main_arg4 (by decide)).trans (ops0_arg4 (W0 m ρ c))
theorem W2_arg5 (c : Dev nD) : W2 m ρ c (Proc.devRef .tc main_arg5) = m ((c : Thread nD τ).loc main_arg5) :=
  (W2_of_ne m ρ c main_arg5 (by decide)).trans (ops0_arg5 (W0 m ρ c))

/-- The gate the host computes between the launches, of what the first launch leaves and of the arguments. -/
abbrev gateK (c : Dev nD) : FVec F S8x256 .f32 :=
  Spec.gate (Spec.sumsOf ((dat0 (V1 m ρ) c).arrAt 2 cfg0.N)) (Spec.countsOf (Spec.oneHot (m ((c : Thread nD τ).loc main_arg1))))
    (m ((c : Thread nD τ).loc main_arg2)) (m ((c : Thread nD τ).loc main_arg3))
    (m ((c : Thread nD τ).loc main_arg4)) (m ((c : Thread nD τ).loc main_arg5))

theorem W4_arg4 (c : Dev nD) : W4 m ρ c (Proc.devRef .tc main_arg4) = m ((c : Thread nD τ).loc main_arg4) :=
  (ops11_arg4 (W3 m ρ c)).trans ((ops1_arg4 (W2 m ρ c)).trans (W2_arg4 m ρ c))
theorem W4_arg5 (c : Dev nD) : W4 m ρ c (Proc.devRef .tc main_arg5) = m ((c : Thread nD τ).loc main_arg5) :=
  (ops11_arg5 (W3 m ρ c)).trans ((ops1_arg5 (W2 m ρ c)).trans (W2_arg5 m ρ c))
/-- The rectified first layer, after the called rectifier. -/
theorem W4_v24 (c : Dev nD) : W4 m ρ c (Proc.devRef .tc main_v24)
    = Spec.rectify (Spec.dense1 (Spec.sumsOf ((dat0 (V1 m ρ) c).arrAt 2 cfg0.N)) (Spec.countsOf (Spec.oneHot (m ((c : Thread nD τ).loc main_arg1))))
        (m ((c : Thread nD τ).loc main_arg2)) (m ((c : Thread nD τ).loc main_arg3))) :=
  (ops11_v24 (W3 m ρ c)).trans (congrArg Spec.rectify ((ops1_v23 (W2 m ρ c)).trans (by
    rw [W2_v7 m ρ c, W2_v6 m ρ c, W2_arg2 m ρ c, W2_arg3 m ρ c])))

/-- The second launch's four input arrays as it finds them. -/
theorem V5_arg0 (c : Dev nD) : V5 m ρ c main_arg0 = m ((c : Thread nD τ).loc main_arg0) :=
  (ops12_arg0 (W4 m ρ c)).trans ((ops11_arg0 (W3 m ρ c)).trans ((ops1_arg0 (W2 m ρ c)).trans (W2_arg0 m ρ c)))
theorem V5_v6 (c : Dev nD) : V5 m ρ c main_v6 = Spec.oneHot (m ((c : Thread nD τ).loc main_arg1)) :=
  (ops12_v6 (W4 m ρ c)).trans ((ops11_v6 (W3 m ρ c)).trans ((ops1_v6 (W2 m ρ c)).trans (W2_v6 m ρ c)))
theorem V5_v35 (c : Dev nD) : V5 m ρ c main_v35 = truncf .bf16 (gateK m ρ c) bitsLt_bf16_f32 :=
  (ops12_v35 (W4 m ρ c)).trans (by rw [W4_v24 m ρ c, W4_arg4 m ρ c, W4_arg5 m ρ c, ← Spec.gate_eq])
theorem V5_v38 (c : Dev nD) : V5 m ρ c main_v38
    = truncf .bf16 (subf (gateK m ρ c) (extf .f32 (truncf .bf16 (gateK m ρ c) bitsLt_bf16_f32) bitsLt_bf16_f32)) bitsLt_bf16_f32 :=
  (ops12_v38 (W4 m ρ c)).trans (by rw [W4_v24 m ρ c, W4_arg4 m ρ c, W4_arg5 m ρ c, ← Spec.gate_eq])

end Cert.KernelIdeal.HostK

end
-- ==== Proof.Region0Body.lean ====
/-
  ONE STEP OF THE POOLING ACCUMULATION, index by index, over the extended reals.

  The pooling call walks the 262144 rows in 32 tiles of 8192 rows, 16 consecutive tiles to one resident output block
  `[1, 8, 256]`. At each point it adds to that block the product of the tile's membership table, transposed, with
  the tile's features: entry `(b, j)` grows by `∑ᵣ oh[8192 t + r, b] · x[8192 t + r, j]`. At a point ≡ 0 (mod 16)
  the block is first set to zero, so there it is left at that sum alone.

  The module reads this off the generated frame of the call: what each control case's stores leave in the block is the
  accumulating payload of the input blocks (`out_A`, `out_B`); that payload at an index is the block read before plus
  a product whose LEFT operand is contracted along its rows (`colDot_matmul_zero_apply`, `k0_pay2_apply`); an input
  block's row `r` at point `t` is row `8192 t + r` of its array (`xblk_apply`, `ohblk_apply`). Together:
  `outsAt0_reset` and `outsAt0_step`.
-/
import proofs.«429100_j40699110096955_3_alg».proof.Proof.Spec
import proofs.«429100_j40699110096955_3_alg».proof.Proof.Gen.KernelIdeal.Frame
import Idealize.ShloMosaic.Lib.Pipeline.Value
import Idealize.ShloMosaic.PureOps.Ideal.Laws
import Idealize.ShloMosaic.Lib.Tactic

noncomputable section

open scoped BigOperators

namespace Cert.KernelIdeal.Region0Body

open Idealize.ShloMosaic Idealize.ShloMosaic.TcCoe Idealize.SL.Sem
open Cert.KernelIdeal Cert.KernelIdeal.Gen Idealize.ShloMosaic.ValueIdx

/-! ## What each case's stores leave, as a payload of the blocks -/
section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a reset the output block, holding `xo`, is left at the accumulating payload of the two input
    blocks and `xo`: the one store covers the block and every load reads a whole buffer. -/
theorem out_B (c : Dev nD) (i : grid0.Coords) (a2 : Memref sig .tc .vmem S8192x256 .f32) (h2 : a2.IsWhole)
    (a3 : Memref sig .tc .vmem S8192x8 .bf16) (h3 : a3.IsWhole) (a4 : Memref sig .tc .vmem S1x8x256 .f32) (h4 : a4.IsWhole)
    (hc : ¬cond0_0 i) (x0 : Vec F S8192x256 .f32) (x1 : Vec F S8192x8 .bf16) (xo : Vec F S1x8x256 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero (S := S1x8x256) hz3]
  simp only [View.readAt_eq_ld, h2.read_unread, h3.read_unread, h4.read_unread, View.ld_unit_zero (S := S8192x256) hz2,
    View.ld_unit_zero (S := S8192x8) hz2, View.ld_unit_zero (S := S1x8x256) hz3]

/-- At a reset the zero block is stored first and read back, so the block is left at the accumulating payload
    over the zero block. -/
theorem out_A (c : Dev nD) (i : grid0.Coords) (a2 : Memref sig .tc .vmem S8192x256 .f32) (h2 : a2.IsWhole)
    (a3 : Memref sig .tc .vmem S8192x8 .bf16) (h3 : a3.IsWhole) (a4 : Memref sig .tc .vmem S1x8x256 .f32) (h4 : a4.IsWhole)
    (hc : cond0_0 i) (x0 : Vec F S8192x256 .f32) (x1 : Vec F S8192x8 .bf16) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x256) hz3, View.readCov_unit_zero (S := S1x8x256) _ hz3]
  simp only [View.readAt_eq_ld, h2.read_unread, h3.read_unread, View.ld_unit_zero (S := S8192x256) hz2,
    View.ld_unit_zero (S := S8192x8) hz2]

end Pieces

/-! ## A product contracting the LEFT operand's rows -/
section ColDot
variable (K M N : Nat)

/-- The dimension numbers of `[K, M]ᵀ × [K, N] → [M, N]`: both operands contracted on axis 0. -/
abbrev colDot (wf : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF (⟨2, ![K, M]⟩ : Shape) ⟨2, ![K, N]⟩ ⟨2, ![M, N]⟩ [0] [0] [1] [1] [] [])

/-- The left operand's row is the contraction index. -/
theorem colDot_lhs_0 (i : (⟨2, ![M, N]⟩ : Shape).Idx) (q : (colDot K M N wf).contr.Idx) :
    ((colDot K M N wf).lhsIdx i q 0).val = (q ⟨0, Nat.one_pos⟩).val :=
  (colDot K M N wf).lhsIdx_val_of_single rfl i q

/-- The left operand's column is the result's row. -/
theorem colDot_lhs_1 (i : (⟨2, ![M, N]⟩ : Shape).Idx) (q : (colDot K M N wf).contr.Idx) :
    ((colDot K M N wf).lhsIdx i q 1).val = (i 0).val := by
  unfold DotDims.lhsIdx
  rw [dif_neg (show ¬(1 : Fin 2) ∈ (colDot K M N wf).lhsBatch from List.not_mem_nil),
    dif_pos (show (1 : Fin 2) ∈ (colDot K M N wf).lhsNonContracting from List.mem_singleton.mpr rfl)]
  rfl

/-- The right operand's row is the contraction index. -/
theorem colDot_rhs_0 (i : (⟨2, ![M, N]⟩ : Shape).Idx) (q : (colDot K M N wf).contr.Idx) :
    ((colDot K M N wf).rhsIdx i q 0).val = (q ⟨0, Nat.one_pos⟩).val :=
  (colDot K M N wf).rhsIdx_val_of_single rfl i q

/-- The right operand's column is the result's column. -/
theorem colDot_rhs_1 (i : (⟨2, ![M, N]⟩ : Shape).Idx) (q : (colDot K M N wf).contr.Idx) :
    ((colDot K M N wf).rhsIdx i q 1).val = (i 1).val := by
  unfold DotDims.rhsIdx
  rw [dif_neg (show ¬(1 : Fin 2) ∈ (colDot K M N wf).rhsBatch from List.not_mem_nil),
    dif_pos (show (1 : Fin 2) ∈ (colDot K M N wf).rhsNonContracting from List.mem_singleton.mpr rfl)]
  rfl

/-- The product at `(p, j)`, accumulated into zero: `∑ₖ L[k, p] · R[k, j]`. -/
theorem colDot_matmul_zero_apply {φ₁ φ₂ : FTy} (prec : Option ContractPrecision)
    (L : FVec Ideal (⟨2, ![K, M]⟩ : Shape) φ₁) (R : FVec Ideal (⟨2, ![K, N]⟩ : Shape) φ₂) (p : Fin M) (j : Fin N) :
    matmul (F := Ideal) (colDot K M N wf) prec L R (constant (⟨2, ![M, N]⟩ : Shape) .f32 0x00000000#32) (ix2 p j)
      = ∑ k : Fin K, L (ix2 k p) * R (ix2 k j) := by
  show FloatOps.matmul (colDot K M N wf) prec L R (constant (⟨2, ![M, N]⟩ : Shape) .f32 0x00000000#32) (ix2 p j) = _
  rw [Ideal.matmul_constant_zero_apply, ← Equiv.sum_comp (contrEquiv1 (colDot K M N wf) K rfl rfl).symm]
  refine Finset.sum_congr rfl fun k _ => ?_
  have hk := contrEquiv1_symm_val (colDot K M N wf) K rfl rfl k
  have el : (colDot K M N wf).lhsIdx (ix2 p j) ((contrEquiv1 (colDot K M N wf) K rfl rfl).symm k) = ix2 k p :=
    funext fun a => Fin.ext (by
      match a with
      | ⟨0, _⟩ => exact (colDot_lhs_0 K M N wf _ _).trans hk
      | ⟨1, _⟩ => exact colDot_lhs_1 K M N wf _ _)
  have er : (colDot K M N wf).rhsIdx (ix2 p j) ((contrEquiv1 (colDot K M N wf) K rfl rfl).symm k) = ix2 k j :=
    funext fun a => Fin.ext (by
      match a with
      | ⟨0, _⟩ => exact (colDot_rhs_0 K M N wf _ _).trans hk
      | ⟨1, _⟩ => exact colDot_rhs_1 K M N wf _ _)
  rw [el, er]

end ColDot

/-! ## The accumulating payload at an index -/

/-- The zero block reads zero. -/
theorem k0_pay1_apply (y : S1x8x256.Idx) : k0_pay1 (F := Ideal) y = 0 := by
  unfold k0_pay1
  exact Ideal.ofBits_zero_f32

/-- The stored block at `(0, b, j)`: the block read before, plus the tile's membership column `b` against the
    tile's feature column `j`. -/
theorem k0_pay2_apply (x0 : Vec Ideal S8192x256 .f32) (x1 : Vec Ideal S8192x8 .bf16) (xo : Vec Ideal S1x8x256 .f32)
    (b : Fin 8) (j : Fin 256) :
    k0_pay2 (F := Ideal) x0 x1 xo (ix3 (0 : Fin 1) b j)
      = xo (ix3 (0 : Fin 1) b j) + ∑ r : Fin 8192, x1 (ix2 r b) * x0 (ix2 r j) := by
  unfold k0_pay2
  refine (shapeCast_apply _ _ (ix3 (0 : Fin 1) b j) (ix2 b j) ?_).trans ?_
  · rw [Shape.rowMajor_val_two, Shape.rowMajor_val_three]
    show b.val * 256 + j.val = (0 * 8 + b.val) * 256 + j.val
    omega
  refine (addf_apply _ _ (ix2 b j)).trans ?_
  refine congrArg₂ (· + ·) ?_ ?_
  · refine shapeCast_apply xo _ (ix2 b j) (ix3 (0 : Fin 1) b j) ?_
    rw [Shape.rowMajor_val_two, Shape.rowMajor_val_three]
    show (0 * 8 + b.val) * 256 + j.val = b.val * 256 + j.val
    omega
  · refine (colDot_matmul_zero_apply 8192 8 256 dot_S8192x8_S8192x256_S8x256_0_0_1_1_n_n_wf none _ _ b j).trans ?_
    refine Finset.sum_congr rfl fun r _ => ?_
    rw [shapeCast_self]
    rfl

/-! ## The input blocks, read off the arrays -/
section Blocks
variable (V : (c : Dev nD) → (b : Ref sig .tc) → Buf (Elt Ideal) ((c : Thread nD τ).loc b))

/-- The tile of the features at point `t`, the membership table's tile, and the two arrays, at their literal types. -/
abbrev xblk (c : Dev nD) (t : Fin cfg0.N) : Vec Ideal S8192x256 .f32 := iblk0 V c 0 t
abbrev ohblk (c : Dev nD) (t : Fin cfg0.N) : Vec Ideal S8192x8 .bf16 := iblk0 V c 1 t
abbrev xarr (c : Dev nD) : Vec Ideal S262144x256 .f32 := V c main_arg0
abbrev oharr (c : Dev nD) : Vec Ideal S262144x8 .bf16 := V c main_v6

/-- The grid has 32 points, so a tile's row stays inside the arrays. -/
theorem row_lt (t : Fin cfg0.N) (r : Fin 8192) : 8192 * t.val + r.val < 262144 := by
  have hN : t.val < 32 := lt_of_lt_of_eq t.isLt (show cfg0.N = 32 from N_0)
  have := r.isLt
  omega

/-- Both windows walk the rows tile by tile and keep every column. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)

/-- Row `r` of the features' tile at point `t` is row `8192 t + r` of the features. -/
theorem xblk_apply (c : Dev nD) (t : Fin cfg0.N) (r : Fin 8192) (j : Fin 256) :
    xblk V c t (ix2 r j) = xarr V c (ix2 ⟨8192 * t.val + r.val, row_lt t r⟩ j) := by
  have hi := index0_0 t
  show iblk0 V c 0 t (ix2 r j) = V c main_arg0 _
  unfold iblk0
  rw [View.read_apply]
  show V c main_arg0 _ = V c main_arg0 _
  congr 1
  funext a
  apply Fin.ext
  match a with
  | ⟨0, _⟩ => show win0_0.index t 0 * 8192 + 1 * r.val = 8192 * t.val + r.val; rw [hi.1]; omega
  | ⟨1, _⟩ => show win0_0.index t 1 * 256 + 1 * j.val = j.val; rw [hi.2]; omega

/-- Row `r` of the membership table's tile at point `t` is row `8192 t + r` of the table. -/
theorem ohblk_apply (c : Dev nD) (t : Fin cfg0.N) (r : Fin 8192) (b : Fin 8) :
    ohblk V c t (ix2 r b) = oharr V c (ix2 ⟨8192 * t.val + r.val, row_lt t r⟩ b) := by
  have hi := index0_1 t
  show iblk0 V c 1 t (ix2 r b) = V c main_v6 _
  unfold iblk0
  rw [View.read_apply]
  show V c main_v6 _ = V c main_v6 _
  congr 1
  funext a
  apply Fin.ext
  match a with
  | ⟨0, _⟩ => show win0_1.index t 0 * 8192 + 1 * r.val = 8192 * t.val + r.val; rw [hi.1]; omega
  | ⟨1, _⟩ => show win0_1.index t 1 * 8 + 1 * b.val = b.val; rw [hi.2]; omega

/-- So the tile's product is the tile's membership-weighted column sum. -/
theorem tile_sum (c : Dev nD) (t : Fin cfg0.N) (b : Fin 8) (j : Fin 256) :
    ∑ r : Fin 8192, ohblk V c t (ix2 r b) * xblk V c t (ix2 r j) = Spec.tileSumAt (V c main_arg0) (V c main_v6) t.val b j := by
  unfold Spec.tileSumAt
  refine Finset.sum_congr rfl fun r _ => ?_
  rw [dif_pos (row_lt t r)]
  exact congrArg₂ (· * ·) (ohblk_apply V c t r b) (xblk_apply V c t r j)

end Blocks

/-! ## One step of the accumulation, index by index -/

theorem outsAt0_reset (V : (c : Dev nD) → (b : Ref sig .tc) → Buf (Elt Ideal) ((c : Thread nD τ).loc b)) (c : Dev nD) (t : Fin cfg0.N) (h0 : t.val % 16 = 0) (b : Fin 8) (j : Fin 256) :
    outsAt0 (F := Ideal) V c t.val t.isLt (ix3 (0 : Fin 1) b j) = Spec.tileSumAt (V c main_arg0) (V c main_v6) t.val b j := by
  rw [outsAt0_A V c t h0]
  refine (congrFun (out_A (F := Ideal) c (grid0.coords t) (ms0_0 t) (hs0_0 t) (ms0_1 t) (hs0_1 t) (ms0_2 t) (hs0_2 t)
    ((hcond0_0 t).mpr h0) (iblk0 V c 0 t) (iblk0 V c 1 t)) (ix3 (0 : Fin 1) b j)).trans ?_
  refine (k0_pay2_apply (xblk V c t) (ohblk V c t) (k0_pay1 (F := Ideal)) b j).trans ?_
  rw [k0_pay1_apply, zero_add]
  exact tile_sum V c t b j

theorem outsAt0_step (V : (c : Dev nD) → (b : Ref sig .tc) → Buf (Elt Ideal) ((c : Thread nD τ).loc b)) (c : Dev nD) (t : Fin cfg0.N) (h0 : ¬ t.val % 16 = 0) (b : Fin 8) (j : Fin 256) :
    outsAt0 (F := Ideal) V c t.val t.isLt (ix3 (0 : Fin 1) b j)
      = outsAt0 (F := Ideal) V c (t.val - 1) (Nat.lt_of_le_of_lt (Nat.sub_le _ _) t.isLt) (ix3 (0 : Fin 1) b j)
        + Spec.tileSumAt (V c main_arg0) (V c main_v6) t.val b j := by
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (iblk0 V c 0 t) (iblk0 V c 1 t)
    (outsAt0 V c (t.val - 1) (Nat.lt_of_le_of_lt (Nat.sub_le _ _) t.isLt))) (ix3 (0 : Fin 1) b j)).trans ?_
  refine (k0_pay2_apply (xblk V c t) (ohblk V c t)
    (outsAt0 V c (t.val - 1) (Nat.lt_of_le_of_lt (Nat.sub_le _ _) t.isLt)) b j).trans ?_
  exact congrArg (outsAt0 (F := Ideal) V c (t.val - 1) (Nat.lt_of_le_of_lt (Nat.sub_le _ _) t.isLt) (ix3 (0 : Fin 1) b j) + ·)
    (tile_sum V c t b j)

end Cert.KernelIdeal.Region0Body

end
-- ==== Proof.Region0.lean ====
/-
  The pooling pass over the rows, read as sums. The grid has 32 points `t = 16 h + i`: half `h` of the 262144 rows, tile
  `i` of its sixteen tiles of 8192 rows. At each point the output block `(h, ·, ·)` gains the membership-weighted column
  sums of the point's tile — reset at the first tile of a half, added to elsewhere — and it is written back once per
  half, after the half's last tile. So:

  * after point `n` the block holds, at `(0, b, j)`, the tile sums of tiles `16 (n / 16) … n` (`outsAt_eq`, by induction
    on the point from the two one-step equations);
  * sixteen consecutive tiles of 8192 rows are the 131072 rows of a half (`sum_half`, pure arithmetic of finite sums in a
    commutative additive monoid), so at the last point of half `h` the block holds `halfSumAt · · h b j` (`outsAt_last`);
  * the write-back at that point writes block `(h, ·, ·)` of the array `halfSums` (`flushed_eq`), and the two blocks cover
    the array `[2, 8, 256]`: it ends holding `halfSums` (`final0`).
-/
import proofs.«429100_j40699110096955_3_alg».proof.Proof.Spec
import proofs.«429100_j40699110096955_3_alg».proof.Proof.Gen.KernelIdeal.Frame
import proofs.«429100_j40699110096955_3_alg».proof.Proof.Gen.KernelIdeal.Points
import proofs.«429100_j40699110096955_3_alg».proof.Proof.Region0Body
import Idealize.ShloMosaic.Lib.Pipeline.Value
import Mathlib.Algebra.BigOperators.Intervals
import Mathlib.Algebra.BigOperators.Fin

set_option maxRecDepth 16384

noncomputable section

open scoped BigOperators

namespace Cert.KernelIdeal.Region0

open Cert.KernelIdeal Cert.KernelIdeal.Gen Idealize.ShloMosaic.ValueIdx
open Idealize.ShloMosaic Idealize.ShloMosaic.TcCoe Idealize.SL.Sem
open Idealize.ShloMosaic.Pipeline (Dat)

/-! ## Sums over consecutive tiles: pure arithmetic in a commutative additive monoid -/

section Arith
variable {M : Type*} [AddCommMonoid M]

/-- A sum over the interval of `m + 1` naturals from `a` on, re-indexed from zero. -/
theorem sum_Icc_eq_sum_range (f : ℕ → M) (a : ℕ) : ∀ m : ℕ,
    ∑ s ∈ Finset.Icc a (a + m), f s = ∑ k ∈ Finset.range (m + 1), f (a + k)
  | 0 => by simp
  | m + 1 => by
    rw [← Nat.add_assoc, Finset.sum_Icc_succ_top (by omega), sum_Icc_eq_sum_range f a m, Finset.sum_range_succ (fun k => f (a + k)) (m + 1)]
    rfl

/-- `m` consecutive tiles of `T` terms are the first `T * m` terms. -/
theorem sum_tiles (T : ℕ) (G : ℕ → M) : ∀ m : ℕ,
    ∑ k ∈ Finset.range m, ∑ r ∈ Finset.range T, G (T * k + r) = ∑ n ∈ Finset.range (T * m), G n
  | 0 => by simp
  | m + 1 => by
    rw [Finset.sum_range_succ, sum_tiles T G m, Nat.mul_succ, Finset.sum_range_add]

/-- The sixteen tiles of 8192 rows from tile `16 h` on are the 131072 rows of half `h`. -/
theorem sum_half (g : ℕ → M) (h : ℕ) :
    ∑ s ∈ Finset.Icc (16 * h) (16 * h + 15), ∑ r : Fin 8192, g (8192 * s + r.val)
      = ∑ n : Fin 131072, g (131072 * h + n.val) := by
  rw [sum_Icc_eq_sum_range (fun s => ∑ r : Fin 8192, g (8192 * s + r.val)) (16 * h) 15]
  have e : ∀ k ∈ Finset.range (15 + 1), (∑ r : Fin 8192, g (8192 * (16 * h + k) + r.val))
      = ∑ r ∈ Finset.range 8192, (fun n => g (131072 * h + n)) (8192 * k + r) := by
    intro k _
    rw [← Finset.sum_range (fun r => g (8192 * (16 * h + k) + r))]
    refine Finset.sum_congr rfl fun r _ => ?_
    show g _ = g _
    congr 1; omega
  rw [Finset.sum_congr rfl e, sum_tiles 8192 (fun n => g (131072 * h + n)) (15 + 1),
    Finset.sum_range (fun n => g (131072 * h + n))]

end Arith

/-! ## Tile sums and half sums over one row term -/

section Terms
variable (x : FVec Ideal S262144x256 .f32) (oh : FVec Ideal S262144x8 .bf16) (b : Fin 8) (j : Fin 256)

/-- Row `n`'s term of both sums: membership of row `n` in batch `b` times the feature at `(n, j)`; zero past the
    array's end. -/
def rowTerm (n : ℕ) : EReal :=
  if h : n < 262144 then oh (ix2 (⟨n, h⟩ : Fin 262144) b) * x (ix2 (⟨n, h⟩ : Fin 262144) j) else 0

theorem tileSumAt_eq (s : ℕ) : Spec.tileSumAt x oh s b j = ∑ r : Fin 8192, rowTerm x oh b j (8192 * s + r.val) := rfl

theorem halfSumAt_eq (h : Fin 2) :
    Spec.halfSumAt x oh h b j = ∑ n : Fin 131072, rowTerm x oh b j (131072 * h.val + n.val) := by
  unfold Spec.halfSumAt
  refine Finset.sum_congr rfl fun n _ => ?_
  unfold rowTerm
  rw [dif_pos (by have := h.isLt; have := n.isLt; omega)]

/-- The sixteen tile sums of half `q`, ending at tile `n = 16 q + 15`, add up to the half's sum. -/
theorem tiles_eq_half (q : Fin 2) (n : ℕ) (hn : n = 16 * q.val + 15) :
    ∑ s ∈ Finset.Icc (16 * (n / 16)) n, Spec.tileSumAt x oh s b j = Spec.halfSumAt x oh q b j := by
  subst hn
  rw [show (16 * q.val + 15) / 16 = q.val from by omega, halfSumAt_eq]
  simp only [tileSumAt_eq]
  exact sum_half (rowTerm x oh b j) q.val

end Terms

/-! ## The invariant: after point `n` the block holds the tiles of the current half summed up to `n` -/

section Run
variable (V : (c : Dev nD) → (b : Ref sig .tc) → Buf (Elt Ideal) ((c : Thread nD τ).loc b)) (c : Dev nD)

/-- After point `n`, the output block at `(0, b, j)` is the sum of the tile sums from the first tile of `n`'s
    half up to tile `n`: by induction on the point, a reset at the first tile of a half and one more term elsewhere. -/
theorem outsAt_eq (b : Fin 8) (j : Fin 256) : ∀ (n : ℕ) (h : n < cfg0.N),
    outsAt0 (F := Ideal) V c n h (ix3 (0 : Fin 1) b j)
      = ∑ s ∈ Finset.Icc (16 * (n / 16)) n, Spec.tileSumAt (V c main_arg0) (V c main_v6) s b j
  | 0, h => by
    have e := Region0Body.outsAt0_reset V c ⟨0, h⟩ rfl b j
    rw [show 16 * (0 / 16) = 0 from by omega, Finset.Icc_self, Finset.sum_singleton]
    exact e
  | n + 1, h => by
    by_cases h0 : (n + 1) % 16 = 0
    · have e := Region0Body.outsAt0_reset V c ⟨n + 1, h⟩ h0 b j
      have e16 : 16 * ((n + 1) / 16) = n + 1 := by omega
      rw [e16, Finset.Icc_self, Finset.sum_singleton]
      exact e
    · have e := Region0Body.outsAt0_step V c ⟨n + 1, h⟩ h0 b j
      have e16 : 16 * ((n + 1) / 16) = 16 * (n / 16) := by omega
      rw [e16, Finset.sum_Icc_succ_top (by omega), ← outsAt_eq b j n (Nat.lt_of_succ_lt h)]
      exact e

end Run

/-! ## What the write-backs write, and the array they leave -/

section Final
variable (V : (c : Dev nD) → (b : Ref sig .tc) → Buf (Elt Ideal) ((c : Thread nD τ).loc b)) (c : Dev nD)

/-- Where point `t` puts the output block: block `t / 16` along the halves, block `0` on the other two axes. -/
theorem index_facts : ∀ t : Fin cfg0.N,
    win0_2.index t (0 : Fin 3) = t.val / 16 ∧ win0_2.index t (1 : Fin 3) = 0 ∧ win0_2.index t (2 : Fin 3) = 0 :=
  (by decide +kernel : ∀ t : Fin grid0.N,
    win0_2.index t (0 : Fin 3) = t.val / 16 ∧ win0_2.index t (1 : Fin 3) = 0 ∧ win0_2.index t (2 : Fin 3) = 0)

/-- At the last point of a half the output block holds that half's sums. -/
theorem outsAt_last (t : Fin cfg0.N) (ht : t.val % 16 = 15) (q : Fin 2) (hq : q.val = t.val / 16) (b : Fin 8) (j : Fin 256) :
    outsAt0 (F := Ideal) V c t.val t.isLt (ix3 (0 : Fin 1) b j)
      = Spec.halfSumAt (V c main_arg0) (V c main_v6) q b j := by
  rw [outsAt_eq V c b j t.val t.isLt]
  exact tiles_eq_half _ _ b j q t.val (by omega)

/-- What a write-back writes is its block of the half sums: the point is the last of its half `t / 16`, and its block
    is `(t / 16, ·, ·)` of the array. -/
theorem flushed_eq (t : Fin cfg0.N) (hf : (cfg0.win 2).flush t = true) :
    (dat0 (F := Ideal) V c).flushed 2 t
      = ((cfg0.win 2).blk t).view.read (Elt Ideal) (Spec.halfSums (V c main_arg0) (V c main_v6)) := by
  have hN : t.val < 32 := lt_of_lt_of_eq t.isLt (show cfg0.N = 32 from N_0)
  have ht : t.val % 16 = 15 := (flush0_2 t).mp hf
  obtain ⟨i0, i1, i2⟩ := index_facts t
  show (cfg0.win 2).cut (grid0.coords t) ((dat0 (F := Ideal) V c).after 2 t) = _
  rw [after0_2]
  funext y
  have hy0 : (y 0).val < 1 := (y 0).isLt
  have hy1 : (y 1).val < 8 := (y 1).isLt
  have hy2 : (y 2).val < 256 := (y 2).isLt
  have eL : (cfg0.win 2).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  have eR : ((cfg0.win 2).blk t).view.emb y
      = ix3 (⟨t.val / 16, by omega⟩ : Fin 2) ⟨(y 1).val, hy1⟩ ⟨(y 2).val, hy2⟩ := by
    funext a; apply Fin.ext
    match a with
    | ⟨0, _⟩ => show win0_2.index t (0 : Fin 3) * 1 + 1 * (y 0).val = t.val / 16; rw [i0]; omega
    | ⟨1, _⟩ => show win0_2.index t (1 : Fin 3) * 8 + 1 * (y 1).val = (y 1).val; rw [i1]; omega
    | ⟨2, _⟩ => show win0_2.index t (2 : Fin 3) * 256 + 1 * (y 2).val = (y 2).val; rw [i2]; omega
  have key := outsAt_last V c t ht ⟨t.val / 16, by omega⟩ rfl ⟨(y 1).val, hy1⟩ ⟨(y 2).val, hy2⟩
  rw [← Spec.halfSums_apply, ← eL, ← eR] at key
  generalize Spec.halfSums (V c main_arg0) (V c main_v6) = G at key ⊢
  generalize outsAt0 (F := Ideal) V c t.val t.isLt = O at key ⊢
  exact key

/-- The array of half sums after the run: every index `(h, b, j)` lies in the block the last point of half `h`
    writes back, and each write-back writes its block of the half sums. -/
theorem final0 (V : (c : Dev nD) → (b : Ref sig .tc) → Buf (Elt Ideal) ((c : Thread nD τ).loc b)) (c : Dev nD) :
    (dat0 (F := Ideal) V c).arrAt 2 cfg0.N = Spec.halfSums (V c main_arg0) (V c main_v6) :=
  (dat0 (F := Ideal) V c).arrAt_eq_of_cover 2 _ (flushed_eq V c) fun i => by
    have h0 : (i 0 : ℕ) < 2 := (i 0).isLt
    have h1 : (i 1 : ℕ) < 8 := (i 1).isLt
    have h2 : (i 2 : ℕ) < 256 := (i 2).isLt
    have hN : cfg0.N = 32 := N_0
    have hlt : 16 * (i 0 : ℕ) + 15 < cfg0.N := by rw [hN]; omega
    obtain ⟨i0, i1, i2⟩ := index_facts ⟨16 * (i 0 : ℕ) + 15, hlt⟩
    have e0 : (16 * (i 0 : ℕ) + 15) / 16 = (i 0 : ℕ) := by omega
    refine ⟨⟨16 * (i 0 : ℕ) + 15, hlt⟩, (flush0_2 _).mpr (by show (16 * (i 0 : ℕ) + 15) % 16 = 15; omega), ?_⟩
    show i ∈ ((View.whole main_v7).slice (win0_2.rect ⟨16 * (i 0 : ℕ) + 15, hlt⟩)).set
    rw [View.set_slice_whole, Rect.mem_set_unit]
    intro a
    match a with
    | ⟨0, _⟩ =>
      show win0_2.index ⟨16 * (i 0 : ℕ) + 15, hlt⟩ (0 : Fin 3) * 1 ≤ (i 0 : ℕ)
        ∧ (i 0 : ℕ) < win0_2.index ⟨16 * (i 0 : ℕ) + 15, hlt⟩ (0 : Fin 3) * 1 + 1
      rw [i0]; show (16 * (i 0 : ℕ) + 15) / 16 * 1 ≤ (i 0 : ℕ) ∧ (i 0 : ℕ) < (16 * (i 0 : ℕ) + 15) / 16 * 1 + 1
      rw [e0]; omega
    | ⟨1, _⟩ =>
      show win0_2.index ⟨16 * (i 0 : ℕ) + 15, hlt⟩ (1 : Fin 3) * 8 ≤ (i 1 : ℕ)
        ∧ (i 1 : ℕ) < win0_2.index ⟨16 * (i 0 : ℕ) + 15, hlt⟩ (1 : Fin 3) * 8 + 8
      rw [i1]; omega
    | ⟨2, _⟩ =>
      show win0_2.index ⟨16 * (i 0 : ℕ) + 15, hlt⟩ (2 : Fin 3) * 256 ≤ (i 2 : ℕ)
        ∧ (i 2 : ℕ) < win0_2.index ⟨16 * (i 0 : ℕ) + 15, hlt⟩ (2 : Fin 3) * 256 + 256
      rw [i2]; omega

end Final

end Cert.KernelIdeal.Region0

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.Region1.lean ====
/-
  THE SECOND CALL OF THE KERNEL, READ AS ONE FUNCTION OF ITS FOUR INPUT ARRAYS, over the extended reals.

  The call walks the 262144 rows in 64 tiles of 4096 rows. On tile `t` it takes rows `4096 t … 4096 t + 4095` of the
  features `x : [262144, 256]` and of the membership table `oh : [262144, 8]`, and the two gate arrays
  `yh, yl : [8, 256]` whole; it forms the two matrix products `oh_tile · yh` and `oh_tile · yl`, each accumulated into
  zero, adds them, multiplies by the feature tile entry by entry, and writes the tile back over the same rows of the
  output. So at row `n` and column `j` the output array ends holding

      ((∑ b, oh[n, b] · yh[b, j]) + ∑ b, oh[n, b] · yl[b, j]) · x[n, j],

  which is `Spec.bcastMul x oh yh yl`. The steps: the stored value at an index of the tile (`pay_apply`); each input
  tile as rows of its array (`xblk_apply`, `ohblk_apply`, `yhblk_apply`, `ylblk_apply`) and the output tile's rows
  (`out_emb`); what point `t` writes back is tile `t` of that function (`flushed_eq`); the 64 tiles cover every row
  (`cover`: row `n` lies in tile `n / 4096`); hence the whole array (`final1`).
-/
import proofs.«429100_j40699110096955_3_alg».proof.Proof.Spec
import proofs.«429100_j40699110096955_3_alg».proof.Proof.LibPlainDot
import proofs.«429100_j40699110096955_3_alg».proof.Proof.Gen.KernelIdeal.Frame
import proofs.«429100_j40699110096955_3_alg».proof.Proof.Gen.KernelIdeal.Points
import Idealize.ShloMosaic.Lib.Pipeline.Value
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.ValueIdx
open Idealize.ShloMosaic.TcCoe Idealize.SL.Sem

/-! ## The payload at an index -/

/-- The printed dimension numbers of both products are the plain ones of `[4096, 8] × [8, 256]`. -/
theorem dims_plain : dot_S4096x8_S8x256_S4096x256_1_0_0_1_n_n = DotDims.plain 4096 8 256 := rfl

/-- What the body stores, at row `p` and column `j` of the tile: the two products over the eight batches, added,
    times the feature. -/
theorem pay_apply (v0 : Vec Ideal S4096x8 .bf16) (v2 v5 : Vec Ideal S8x256 .bf16) (v9 : Vec Ideal S4096x256 .f32)
    (p : Fin 4096) (j : Fin 256) :
    k1_pay1 (F := Ideal) v0 v2 v5 v9 (ix2 p j)
      = ((∑ b : Fin 8, v0 (ix2 p b) * v2 (ix2 b j)) + ∑ b : Fin 8, v0 (ix2 p b) * v5 (ix2 b j)) * v9 (ix2 p j) := by
  unfold k1_pay1
  rw [mulf_apply, addf_apply, shapeCast_self, shapeCast_self, shapeCast_self, dims_plain]
  rw [PlainDot.matmul_zero_apply 4096 8 256, PlainDot.matmul_zero_apply 4096 8 256]

/-! ## The windows' blocks, read at an index -/

section Blocks
variable (V : (c : Dev nD) → (b : Ref sig .tc) → Buf (Elt Ideal) ((c : Thread nD τ).loc b))

theorem zero_off : (![0, 0] : Fin 2 → Nat) = fun _ => 0 := funext fun a => by fin_cases a <;> rfl

/-- The grid has 64 points. -/
theorem N_eq : cfg1.N = 64 := by decide

/-- The printed index maps, decided over the 64 points: the feature window, the membership window and the output
    window sit at block `(t, 0)`; the two gate windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature tile at point `t` is rows `4096 t … 4096 t + 4095` of the features. -/
theorem xblk_apply (c : Dev nD) (t : Fin cfg1.N) (y : S4096x256.Idx) (k : S262144x256.Idx)
    (hk0 : (k 0).val = 4096 * t.val + (y 0).val) (hk1 : (k 1).val = (y 1).val) :
    (iblk1 V c 0 t : Vec Ideal S4096x256 .f32) y = (V c main_arg0 : S262144x256.Idx → EReal) k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 4096 + 1 * (y 0).val = (k 0).val; rw [e0, hk0]; omega
  | ⟨1, _⟩ => show win1_0.index t (1 : Fin 2) * 256 + 1 * (y 1).val = (k 1).val; rw [e1, hk1]; omega

/-- The membership tile at point `t` is the same rows of the membership table. -/
theorem ohblk_apply (c : Dev nD) (t : Fin cfg1.N) (y : S4096x8.Idx) (k : S262144x8.Idx)
    (hk0 : (k 0).val = 4096 * t.val + (y 0).val) (hk1 : (k 1).val = (y 1).val) :
    (iblk1 V c 1 t : Vec Ideal S4096x8 .bf16) y = (V c main_v6 : S262144x8.Idx → EReal) k := by
  obtain ⟨-, -, e0, e1, -⟩ := idx_facts t
  unfold iblk1
  rw [View.read_apply]
  show V c main_v6 _ = V c main_v6 _
  congr 1
  funext a
  apply Fin.ext
  match a with
  | ⟨0, _⟩ => show win1_1.index t (0 : Fin 2) * 4096 + 1 * (y 0).val = (k 0).val; rw [e0, hk0]; omega
  | ⟨1, _⟩ => show win1_1.index t (1 : Fin 2) * 8 + 1 * (y 1).val = (k 1).val; rw [e1, hk1]; omega

/-- The first gate window is the whole array at every point. -/
theorem yhblk_apply (c : Dev nD) (t : Fin cfg1.N) (y : S8x256.Idx) :
    (iblk1 V c 2 t : Vec Ideal S8x256 .bf16) y = (V c main_v35 : S8x256.Idx → EReal) y := by
  obtain ⟨-, -, -, -, e0, e1, -⟩ := idx_facts t
  unfold iblk1
  rw [View.read_apply]
  show V c main_v35 _ = V c main_v35 _
  congr 1
  funext a
  apply Fin.ext
  match a with
  | ⟨0, _⟩ => show win1_2.index t (0 : Fin 2) * 8 + 1 * (y 0).val = (y 0).val; rw [e0]; omega
  | ⟨1, _⟩ => show win1_2.index t (1 : Fin 2) * 256 + 1 * (y 1).val = (y 1).val; rw [e1]; omega

/-- So is the second. -/
theorem ylblk_apply (c : Dev nD) (t : Fin cfg1.N) (y : S8x256.Idx) :
    (iblk1 V c 3 t : Vec Ideal S8x256 .bf16) y = (V c main_v38 : S8x256.Idx → EReal) y := by
  obtain ⟨-, -, -, -, -, -, e0, e1, -⟩ := idx_facts t
  unfold iblk1
  rw [View.read_apply]
  show V c main_v38 _ = V c main_v38 _
  congr 1
  funext a
  apply Fin.ext
  match a with
  | ⟨0, _⟩ => show win1_3.index t (0 : Fin 2) * 8 + 1 * (y 0).val = (y 0).val; rw [e0]; omega
  | ⟨1, _⟩ => show win1_3.index t (1 : Fin 2) * 256 + 1 * (y 1).val = (y 1).val; rw [e1]; omega

/-- Row `p` of the output's block at point `t` is row `4096 t + p` of the array. -/
theorem out_emb (t : Fin cfg1.N) (p : Fin 4096) (j : Fin 256) (n : Fin 262144) (hn : n.val = 4096 * t.val + p.val) :
    ((cfg1.win 4).blk t).view.emb (ix2 p j) = (ix2 n j : S262144x256.Idx) := by
  obtain ⟨-, -, -, -, -, -, -, -, e0, e1⟩ := idx_facts t
  funext a
  apply Fin.ext
  match a with
  | ⟨0, _⟩ => show win1_4.index t (0 : Fin 2) * 4096 + 1 * p.val = n.val; rw [e0, hn]; omega
  | ⟨1, _⟩ => show win1_4.index t (1 : Fin 2) * 256 + 1 * j.val = j.val; rw [e1]; omega

/-! ## What each point writes back, and the array after the region -/

/-- WHAT POINT `t` WRITES BACK is block `t` of the broadcast-and-multiply of the four arrays as the region finds them. -/
theorem flushed_eq (c : Dev nD) (t : Fin cfg1.N) :
    (dat1 (F := Ideal) V c).flushed 4 t
      = ((cfg1.win 4).blk t).view.read (Elt Ideal) (Spec.bcastMul (V c main_arg0) (V c main_v6) (V c main_v35) (V c main_v38)) := by
  show (cfg1.win 4).cut (grid1.coords t) ((dat1 V c).after 4 t) = _
  rw [after1_4]
  unfold out1_4
  rw [View.canon_unit_zero zero_off]
  simp only [View.ld_unit_zero (S := S4096x8) zero_off, View.ld_unit_zero (S := S8x256) zero_off,
    View.ld_unit_zero (S := S4096x256) zero_off]
  funext y
  obtain ⟨p, j, rfl⟩ : ∃ (p : Fin 4096) (j : Fin 256), y = ix2 p j := ⟨y 0, y 1, eq_ix2 y⟩
  have hN : t.val < 64 := N_eq ▸ t.isLt
  have hn : (⟨4096 * t.val + p.val, by have := p.isLt; omega⟩ : Fin 262144).val = 4096 * t.val + p.val := rfl
  show k1_pay1 (F := Ideal) (iblk1 V c 1 t) (iblk1 V c 2 t) (iblk1 V c 3 t) (iblk1 V c 0 t) (ix2 p j)
    = Spec.bcastMul (V c main_arg0) (V c main_v6) (V c main_v35) (V c main_v38) (((cfg1.win 4).blk t).view.emb (ix2 p j))
  refine (pay_apply (iblk1 V c 1 t) (iblk1 V c 2 t) (iblk1 V c 3 t) (iblk1 V c 0 t) p j).trans ?_
  refine Eq.trans ?_ (congrArg (Spec.bcastMul (V c main_arg0) (V c main_v6) (V c main_v35) (V c main_v38))
    (out_emb t p j _ hn).symm)
  rw [Spec.bcastMul_apply]
  unfold Spec.bcastMulAt
  have hx := xblk_apply V c t (ix2 p j) (ix2 ⟨4096 * t.val + p.val, by have := p.isLt; omega⟩ j) rfl rfl
  have hoh : ∀ b : Fin 8, (iblk1 V c 1 t : Vec Ideal S4096x8 .bf16) (ix2 p b)
      = (V c main_v6 : S262144x8.Idx → EReal) (ix2 ⟨4096 * t.val + p.val, by have := p.isLt; omega⟩ b) :=
    fun b => ohblk_apply V c t (ix2 p b) (ix2 ⟨4096 * t.val + p.val, by have := p.isLt; omega⟩ b) rfl rfl
  refine congrArg₂ (· * ·) (congrArg₂ (· + ·) (Finset.sum_congr rfl fun b _ => ?_) (Finset.sum_congr rfl fun b _ => ?_)) hx
  · rw [hoh b, yhblk_apply V c t (ix2 b j)]
  · rw [hoh b, ylblk_apply V c t (ix2 b j)]

/-- An index of the array is in point `t`'s block iff each coordinate is in the block's range on its axis. -/
theorem mem_blk (t : Fin cfg1.N) (i : S262144x256.Idx) :
    i ∈ ((cfg1.win 4).blk t).view.set ↔ ∀ a : Fin 2, win1_4.index t a * S4096x256.size a ≤ (i a).val
      ∧ (i a).val < win1_4.index t a * S4096x256.size a + S4096x256.size a := by
  show i ∈ ((View.whole main_v39).slice (win1_4.rect t)).set ↔ _
  rw [View.set_slice_whole, Rect.mem_set_unit]
  exact Iff.rfl

/-- Every index is in some point's block: row `n` is in the block of point `n / 4096`. -/
theorem cover (i : S262144x256.Idx) :
    ∃ t : Fin cfg1.N, (cfg1.win 4).flush t = true ∧ i ∈ ((cfg1.win 4).blk t).view.set := by
  have hi0 : (i 0).val < 262144 := (i 0).isLt
  have hi1 : (i 1).val < 256 := (i 1).isLt
  obtain ⟨t, ht⟩ : ∃ t : Fin cfg1.N, t.val = (i 0).val / 4096 :=
    ⟨⟨(i 0).val / 4096, by rw [N_eq]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 4096 ≤ (i 0).val ∧ (i 0).val < win1_4.index t (0 : Fin 2) * 4096 + 4096
    rw [e0, ht]; omega
  | ⟨1, _⟩ =>
    show win1_4.index t (1 : Fin 2) * 256 ≤ (i 1).val ∧ (i 1).val < win1_4.index t (1 : Fin 2) * 256 + 256
    rw [e1]; omega

end Blocks

/-- THE ARRAY after the region: the broadcast-and-multiply of the four input arrays, index by index. -/
theorem final1 (V : (c : Dev nD) → (b : Ref sig .tc) → Buf (Elt Ideal) ((c : Thread nD τ).loc b)) (c : Dev nD) :
    (dat1 (F := Ideal) V c).arrAt 4 cfg1.N = Spec.bcastMul (V c main_arg0) (V c main_v6) (V c main_v35) (V c main_v38) :=
  (dat1 (F := Ideal) V c).arrAt_eq_of_cover 4 (Spec.bcastMul (V c main_arg0) (V c main_v6) (V c main_v35) (V c main_v38))
    (fun t _ => flushed_eq V c t) cover

end Cert.KernelIdeal.Region1

end
-- ==== Proof.Bridge.lean ====
/-
  The arithmetic that joins the kernel's arrangement to the layer's value, over the extended reals.

  * The membership table at `(n, b)` is one when the id of row `n` is the word `b` — equivalently, read signed, the
    number `b` — and zero otherwise (`oneHot_apply`, `word_eq_iff`); so a membership-weighted sum over rows is the
    sum over the rows of that batch: `0 · x = 0` and `1 · x = x` hold at every extended real, no finiteness is used.
  * The two halves' membership-weighted sums add up to the per-batch sums (`sums_bridge`: a sum over all rows splits
    into its halves), and the table's column sums are the per-batch counts (`counts_bridge`).
  * The logistic function `1 / (1 + exp (-z))` takes a real value at every extended real, the infinities included
    (`logistic_real`), so every entry of the gate is real (`gate_real`) and the gate minus itself is zero.
  * For a row whose id lies in `[0, 8)`, the membership-weighted sum of the gate's rows over the eight batches is the
    gate's row of that batch, the same sum over the zero correction is zero, and their sum times the feature is the
    layer's value there (`pick_row`).
-/
import proofs.«429100_j40699110096955_3_alg».proof.Proof.SpecHost
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate
import Mathlib.Algebra.BigOperators.Fin

set_option maxRecDepth 16384

noncomputable section

open scoped BigOperators

namespace Cert.KernelIdeal.Bridge

open Idealize.ShloMosaic Idealize.ShloMosaic.ValueIdx Cert.KernelIdeal
open Cert.KernelIdeal.Facts₀

variable [Cert.KernelIdeal.Facts₀]

/-! ## The membership table at an index -/

theorem uitofp_cmpi_eq (x y : BitVec 32) :
    FloatOps.uitofp (F := Ideal) .bf16 (IntOp.cmpi .eq x y) = if x = y then (1 : EReal) else 0 := by
  by_cases h : x = y
  · rw [if_pos h, StableHlo.Predicate.cmpi_eq_iff.2 h]
    show (((1#1 : BitVec 1).toNat : ℝ) : EReal) = 1
    simp
  · rw [if_neg h]
    have h0 : IntOp.cmpi .eq x y = 0#1 := by
      have hne : ¬ IntOp.cmpi .eq x y = 1#1 := fun e => h (StableHlo.Predicate.cmpi_eq_iff.1 e)
      revert hne; generalize IntOp.cmpi .eq x y = w; revert w; decide
    rw [h0]
    show (((0#1 : BitVec 1).toNat : ℝ) : EReal) = 0
    simp

theorem oneHot_apply (ids : IVec S262144 32) (n : Fin 262144) (b : Fin 8) :
    Spec.oneHot (F := Ideal) ids (ix2 n b) = if ids (ix1 n) = BitVec.ofNat 32 b.val then (1 : EReal) else 0 := by
  unfold Spec.oneHot
  show FloatOps.uitofp (F := Ideal) .bf16 (IntOp.cmpi .eq _ _) = _
  rw [broadcastInDim_apply ![0, 1] bcast_S262144x1_S262144x8_0_1 _ (ix2 n b) (ix2 n (0 : Fin 1)) (by
        intro a; match a with
        | ⟨0, _⟩ => rfl
        | ⟨1, _⟩ => rfl),
    broadcastInDim_apply ![0] bcast_S262144_S262144x1_0 ids (ix2 n (0 : Fin 1)) (ix1 n) (by
        intro a; match a with
        | ⟨0, _⟩ => rfl),
    broadcastInDim_apply ![0, 1] bcast_S1x8_S262144x8_0_1 _ (ix2 n b) (ix2 (0 : Fin 1) b) (by
        intro a; match a with
        | ⟨0, _⟩ => rfl
        | ⟨1, _⟩ => rfl),
    broadcastInDim_apply ![1] bcast_S8_S1x8_1 _ (ix2 (0 : Fin 1) b) (ix1 b) (by
        intro a; match a with
        | ⟨0, _⟩ => rfl),
    iotaInDim_apply]
  exact uitofp_cmpi_eq _ _

/-! ## The host's sums and counts at an index -/

theorem sumsOf_apply (P : FVec Ideal S2x8x256 .f32) (b : Fin 8) (j : Fin 256) :
    Spec.sumsOf P (ix2 b j) = P (ix3 (0 : Fin 2) b j) + P (ix3 (1 : Fin 2) b j) := by
  unfold Spec.sumsOf
  rw [addf_apply,
    shapeCast_apply _ shapeCasts_S1x8x256_S8x256 (ix2 b j) (ix3 (0 : Fin 1) b j) (by
      rw [Shape.rowMajor_val_three, Shape.rowMajor_val_two]
      show ((0 : Nat) * 8 + b.val) * 256 + j.val = b.val * 256 + j.val
      omega),
    shapeCast_apply _ shapeCasts_S1x8x256_S8x256 (ix2 b j) (ix3 (0 : Fin 1) b j) (by
      rw [Shape.rowMajor_val_three, Shape.rowMajor_val_two]
      show ((0 : Nat) * 8 + b.val) * 256 + j.val = b.val * 256 + j.val
      omega),
    extractStridedSlice_apply ![0, 0, 0] P slices_S2x8x256_S1x8x256_0_0_0 (ix3 (0 : Fin 1) b j) (ix3 (0 : Fin 2) b j) (by
      intro a; match a with
      | ⟨0, _⟩ => rfl
      | ⟨1, _⟩ => show b.val = 0 + b.val; omega
      | ⟨2, _⟩ => show j.val = 0 + j.val; omega),
    extractStridedSlice_apply ![1, 0, 0] P slices_S2x8x256_S1x8x256_1_0_0 (ix3 (0 : Fin 1) b j) (ix3 (1 : Fin 2) b j) (by
      intro a; match a with
      | ⟨0, _⟩ => rfl
      | ⟨1, _⟩ => show b.val = 0 + b.val; omega
      | ⟨2, _⟩ => show j.val = 0 + j.val; omega)]

/-- Dropping the row axis of a table index leaves its column. -/
theorem drop_rows (n : Fin 262144) (b : Fin 8) : reducesTo_S262144x8_S8_d0.drop (ix2 n b) = ix1 b := by
  funext a
  match a with
  | ⟨0, _⟩ => rfl

theorem countsOf_apply (OH : FVec Ideal S262144x8 .bf16) (b : Fin 8) :
    Spec.countsOf OH (ix1 b) = ∑ n : Fin 262144, OH (ix2 n b) := by
  unfold Spec.countsOf
  rw [hostReduceAdd_apply]
  unfold Ideal.hostReduceAdd
  rw [constant_apply, Ideal.ofBits_zero_f32, zero_add, Finset.sum_filter, sum_idx2]
  refine Finset.sum_congr rfl fun n _ => ?_
  rw [Finset.sum_eq_single b]
  · rw [if_pos (drop_rows n b)]; rfl
  · intro b' _ hb'
    rw [if_neg]
    intro h
    rw [drop_rows] at h
    exact hb' (congrFun h 0)
  · intro h; exact absurd (Finset.mem_univ b) h

/-! ## Halves, words, and the logistic function -/

/-- A sum over all the rows is the sum over the first half plus the sum over the second. -/
theorem sum_halves (f : Fin 262144 → EReal) :
    ∑ n, f n = (∑ k : Fin 131072, f ⟨131072 * (0 : Fin 2).val + k.val, by have := k.isLt; show 131072 * 0 + k.val < 262144; omega⟩)
      + ∑ k : Fin 131072, f ⟨131072 * (1 : Fin 2).val + k.val, by have := k.isLt; show 131072 * 1 + k.val < 262144; omega⟩ := by
  have h : 131072 + 131072 = 262144 := by norm_num
  rw [← Equiv.sum_comp (finCongr h) f, Fin.sum_univ_add]
  refine congrArg₂ (· + ·) (Finset.sum_congr rfl fun k _ => congrArg f (Fin.ext ?_))
    (Finset.sum_congr rfl fun k _ => congrArg f (Fin.ext ?_))
  · show k.val = 131072 * 0 + k.val; omega
  · show 131072 + k.val = 131072 * 1 + k.val; omega

/-- A word is the batch number `b` exactly when, read signed, it is `b`. -/
theorem word_eq_iff (w : BitVec 32) (b : Fin 8) : w = BitVec.ofNat 32 b.val ↔ w.toInt = (b.val : Int) := by
  have hb : b.val < 2 ^ 31 := by have := b.isLt; omega
  constructor
  · rintro rfl; exact StableHlo.Predicate.toInt_ofNat_small _ hb
  · intro h
    apply BitVec.eq_of_toInt_eq
    rw [h, StableHlo.Predicate.toInt_ofNat_small _ hb]

/-- The value of the logistic function is a real number at every extended real. -/
theorem logistic_real (z : EReal) : ∃ r : ℝ, Ideal.div (1 : EReal) (1 + Ideal.exp (-z)) = (r : EReal) := by
  show ∃ r : ℝ, Ideal.logistic z = (r : EReal)
  induction z using EReal.rec with
  | bot => exact ⟨0, by rw [Ideal.logistic_bot, EReal.coe_zero]⟩
  | top => exact ⟨1, by rw [Ideal.logistic_top, EReal.coe_one]⟩
  | coe r => exact ⟨_, Ideal.logistic_coe r⟩

/-! ## The per-batch sums and counts -/

/-- One membership-weighted term: the feature when the row belongs to batch `b`, zero otherwise. -/
theorem term_eq (x : FVec Ideal S262144x256 .f32) (ids : IVec S262144 32) (n : Fin 262144) (b : Fin 8) (j : Fin 256) :
    Spec.oneHot (F := Ideal) ids (ix2 n b) * x (ix2 n j) = if (ids (ix1 n)).toInt = (b.val : Int) then x (ix2 n j) else 0 := by
  rw [oneHot_apply]
  by_cases h : (ids (ix1 n)).toInt = (b.val : Int)
  · rw [if_pos ((word_eq_iff _ _).2 h), if_pos h, one_mul]
  · rw [if_neg (fun e => h ((word_eq_iff _ _).1 e)), if_neg h, zero_mul]

/-- The two halves' membership-weighted sums add up to the sum over the rows of the batch. -/
theorem halves_segSum (x : FVec Ideal S262144x256 .f32) (ids : IVec S262144 32) (b : Fin 8) (j : Fin 256) :
    Spec.halfSumAt x (Spec.oneHot ids) 0 b j + Spec.halfSumAt x (Spec.oneHot ids) 1 b j = Spec.segSumAt x ids b j := by
  unfold Spec.halfSumAt Spec.segSumAt
  rw [sum_halves (fun n => if (ids (ix1 n)).toInt = (b.val : Int) then x (ix2 n j) else 0)]
  exact congrArg₂ (· + ·) (Finset.sum_congr rfl fun k _ => term_eq x ids _ b j)
    (Finset.sum_congr rfl fun k _ => term_eq x ids _ b j)

/-- The per-batch sums the host forms from the two halves are the segment sums. -/
theorem sums_bridge (x : FVec Ideal S262144x256 .f32) (ids : IVec S262144 32) :
    Spec.sumsOf (Spec.halfSums x (Spec.oneHot ids)) = Spec.segSums x ids := by
  funext i
  obtain ⟨b, j, rfl⟩ : ∃ (b : Fin 8) (j : Fin 256), i = ix2 b j := ⟨i 0, i 1, eq_ix2 i⟩
  rw [sumsOf_apply, Spec.halfSums_apply, Spec.halfSums_apply, Spec.segSums_apply, halves_segSum]

/-- The table's column sums are the segment counts. -/
theorem counts_bridge (ids : IVec S262144 32) : Spec.countsOf (Spec.oneHot (F := Ideal) ids) = Spec.segCounts ids := by
  funext i
  obtain ⟨b, rfl⟩ : ∃ b : Fin 8, i = ix1 b := ⟨i 0, eq_ix1 i⟩
  rw [countsOf_apply, Spec.segCounts_apply]
  unfold Spec.segCountAt
  refine Finset.sum_congr rfl fun n _ => ?_
  rw [oneHot_apply]
  exact if_congr (word_eq_iff _ _) rfl rfl

/-! ## The gate is real, and the pick by membership -/

/-- Every entry of the second layer's logistic output is a real number. -/
theorem dense2_real (H : FVec Ideal S8x64 .f32) (W2 : FVec Ideal S64x256 .f32) (b2 : FVec Ideal S256 .f32) (i : S8x256.Idx) :
    ∃ r : ℝ, Spec.dense2 (F := Ideal) H W2 b2 i = (r : EReal) := by
  unfold Spec.dense2
  show ∃ r : ℝ, Ideal.div (broadcastInDim S8x256 ![] bcast_S_S8x256 (constant (F := Ideal) S_ .f32 0x3F800000#32) i)
      (broadcastInDim S8x256 ![] bcast_S_S8x256 (constant (F := Ideal) S_ .f32 0x3F800000#32) i + Ideal.exp (-(_))) = (r : EReal)
  rw [broadcastInDim_scalar_apply, constant_apply, Ideal.ofBits_one_f32]
  exact logistic_real _

/-- Every entry of the gate is a real number. -/
theorem gate_real (S : FVec Ideal S8x256 .f32) (C : FVec Ideal S8 .f32) (W1 : FVec Ideal S256x64 .f32) (b1 : FVec Ideal S64 .f32)
    (W2 : FVec Ideal S64x256 .f32) (b2 : FVec Ideal S256 .f32) (i : S8x256.Idx) :
    ∃ r : ℝ, Spec.gate (F := Ideal) S C W1 b1 W2 b2 i = (r : EReal) := by
  rw [Spec.gate_eq]; exact dense2_real _ _ _ i

/-- A word in `[0, 8)` read signed is the batch number `rowOf` gives it. -/
theorem word_rowOf (w : BitVec 32) (hr : 0 ≤ w.toInt ∧ w.toInt < 8) : w = BitVec.ofNat 32 (Spec.rowOf w).val := by
  have hlt : w.toNat < 8 := by
    have := w.isLt
    rw [BitVec.toInt_eq_toNat_cond] at hr
    split at hr <;> omega
  apply BitVec.eq_of_toNat_eq
  show w.toNat = (BitVec.ofNat 32 (w.toNat % 8)).toNat
  rw [BitVec.toNat_ofNat]
  omega

/-- For a row whose id lies in `[0, 8)`: the membership-weighted sum of a real-valued gate's rows picks that batch's
    row, the same sum over the gate minus itself vanishes, and the sum of the two times the feature is the value. -/
theorem pick_row (x : FVec Ideal S262144x256 .f32) (ids : IVec S262144 32) (Y : FVec Ideal S8x256 .f32)
    (hY : ∀ i, ∃ r : ℝ, Y i = (r : EReal)) (n : Fin 262144) (j : Fin 256)
    (hr : 0 ≤ (ids (ix1 n)).toInt ∧ (ids (ix1 n)).toInt < 8) :
    Spec.bcastMulAt x (Spec.oneHot ids) (truncf .bf16 Y bitsLt_bf16_f32)
        (truncf .bf16 (subf Y (extf .f32 (truncf .bf16 Y bitsLt_bf16_f32) bitsLt_bf16_f32)) bitsLt_bf16_f32) n j
      = Y (ix2 (Spec.rowOf (ids (ix1 n))) j) * x (ix2 n j) := by
  unfold Spec.bcastMulAt
  have hrow := word_rowOf (ids (ix1 n)) hr
  have h1 : (∑ b : Fin 8, Spec.oneHot (F := Ideal) ids (ix2 n b) * (truncf .bf16 Y bitsLt_bf16_f32) (ix2 b j))
      = Y (ix2 (Spec.rowOf (ids (ix1 n))) j) := by
    rw [Finset.sum_eq_single (Spec.rowOf (ids (ix1 n)))]
    · rw [oneHot_apply, if_pos hrow, one_mul]; rfl
    · intro b _ hb
      rw [oneHot_apply, if_neg, zero_mul]
      intro e
      apply hb
      apply Fin.ext
      show b.val = (ids (ix1 n)).toNat % 8
      rw [e, BitVec.toNat_ofNat]
      have := b.isLt
      omega
    · intro h; exact absurd (Finset.mem_univ _) h
  have h2 : (∑ b : Fin 8, Spec.oneHot (F := Ideal) ids (ix2 n b)
      * (truncf .bf16 (subf Y (extf .f32 (truncf .bf16 Y bitsLt_bf16_f32) bitsLt_bf16_f32)) bitsLt_bf16_f32) (ix2 b j)) = 0 := by
    refine Finset.sum_eq_zero fun b _ => ?_
    obtain ⟨r, hr'⟩ := hY (ix2 b j)
    show _ * (Y (ix2 b j) - Y (ix2 b j)) = 0
    rw [hr', ← EReal.coe_sub, sub_self, EReal.coe_zero, mul_zero]
  rw [h1, h2, add_zero]

end Cert.KernelIdeal.Bridge

end
-- ==== Proof.KValue.lean ====
/-
  The idealized kernel program's result array, index by index.

  The run (`KRun.run_out`) leaves the result array at the fold of @main's segments. Read backwards: the second launch
  writes, row by row, the membership-weighted pick of the gate's rows times the features (`Region1.final1`), of the
  four arrays it finds — the features and the membership table as launched, and the gate's two-term split the host
  computed (`HostK`); the gate is the excitation of the per-batch sums and counts, the sums formed from what the
  first launch leaves, the two halves' membership-weighted column sums (`Region0.final0`). Over the extended reals the
  halves add up to the segment sums, the table's column sums are the segment counts, the gate is real-valued so the
  correction term of its split is zero, and for ids in `[0, 8)` the pick is the gate's row of the row's batch
  (`Bridge`): the result array is the layer's value `Spec.result`.
-/
import proofs.«429100_j40699110096955_3_alg».proof.Proof.KRun
import proofs.«429100_j40699110096955_3_alg».proof.Proof.HostK
import proofs.«429100_j40699110096955_3_alg».proof.Proof.Region0
import proofs.«429100_j40699110096955_3_alg».proof.Proof.Region1
import proofs.«429100_j40699110096955_3_alg».proof.Proof.Bridge

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- What the first launch leaves: the two halves' membership-weighted column sums of the features as launched. -/
theorem psum_eq (c : Dev nD) : (dat0 (F := Ideal) (V1 m ρ) c).arrAt 2 cfg0.N
    = Spec.halfSums (m ((c : Thread nD τ).loc main_arg0)) (Spec.oneHot (m ((c : Thread nD τ).loc main_arg1))) := by
  rw [Region0.final0 (V1 m ρ) c, HostK.V1_arg0 m ρ c, HostK.V1_v6 m ρ c]

/-- The gate the host computes between the launches is the excitation of the segment sums and counts. -/
theorem gateK_eq (c : Dev nD) : HostK.gateK m ρ c
    = Spec.gate (Spec.segSums (m ((c : Thread nD τ).loc main_arg0)) (m ((c : Thread nD τ).loc main_arg1)))
        (Spec.segCounts (m ((c : Thread nD τ).loc main_arg1)))
        (m ((c : Thread nD τ).loc main_arg2)) (m ((c : Thread nD τ).loc main_arg3))
        (m ((c : Thread nD τ).loc main_arg4)) (m ((c : Thread nD τ).loc main_arg5)) := by
  unfold HostK.gateK
  rw [psum_eq m ρ c, Bridge.sums_bridge, Bridge.counts_bridge]

/-- The result array after the run is the layer's value, when every id lies in `[0, 8)`. -/
theorem out_eq (c : Dev nD)
    (hr : ∀ n : Fin 262144, 0 ≤ ((m ((c : Thread nD τ).loc main_arg1)) (ix1 n)).toInt
      ∧ ((m ((c : Thread nD τ).loc main_arg1)) (ix1 n)).toInt < 8) :
    W6 m ρ c (Proc.devRef .tc main_v39)
      = Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e1 : W6 m ρ c (Proc.devRef .tc main_v39) = (dat1 (F := Ideal) (V5 m ρ) c).arrAt 4 cfg1.N := W6_arr m ρ c 4
  rw [e1, Region1.final1 (V5 m ρ) c, HostK.V5_arg0 m ρ c, HostK.V5_v6 m ρ c, HostK.V5_v35 m ρ c, HostK.V5_v38 m ρ c,
    gateK_eq m ρ c]
  funext i
  obtain ⟨n, j, rfl⟩ : ∃ (n : Fin 262144) (j : Fin 256), i = ix2 n j := ⟨i 0, i 1, eq_ix2 i⟩
  rw [Spec.bcastMul_apply, Spec.result_apply,
    Bridge.pick_row _ _ _ (fun i => Bridge.gate_real _ _ _ _ _ _ i) n j (hr n)]
  rfl

/-- The run of the idealized kernel program, read: the result array at the layer's value, the arguments as launched. -/
theorem run (hr : ∀ (c : Dev nD) (n : Fin 262144), 0 ≤ ((m ((c : Thread nD τ).loc main_arg1)) (ix1 n)).toInt
      ∧ ((m ((c : Thread nD τ).loc main_arg1)) (ix1 n)).toInt < 8) :
    θ_run defs (onTc (τ := τ) (main (F := Ideal))) ⟨m, fun _ => 0, ρ⟩ (fun r => ∀ c : Dev nD,
      r.2.mem ((c.tc : Thread nD τ).loc main_v39)
        = Spec.result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (out_eq m ρ c (hr c)), (h c).2⟩) (KRun.run_out m ρ)

end Cert.KernelIdeal.KValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefValue.lean ====
/-
  The reference's result, read index by index.

  The reference computes two accumulating scatters over the batch ids (the per-batch column sums of the features and the
  per-batch row counts), a small dense excitation of them, a gather of the excitation's rows by the ids (a negative id
  first moved up by the number of batches, as array indexing does), and the product with the features. This file names
  that composed term as a function of the six arrays and proves that, over the extended reals and when every id lies in
  `[0, 8)`, it is the layer's value: entry `(n, j)` is the gate's entry `(ids n, j)` times `x (n, j)`, the gate taken at the
  per-batch sums and counts.

  * the two scatters read at an index are the sums over the rows whose id is that batch (`refSums_eq`, `refCounts_eq`);
  * an id that is not negative is not moved (`wrapIds_apply`), and an id in `[0, 8)` read signed and clamped into
    `[0, 7]` is its own value (`clampIdx`);
  * the gather then reads the gate's row of that id (`gatherRows_apply`).
-/
import proofs.«429100_j40699110096955_3_alg».proof.Proof.Gen.ReferenceIdeal.Run
import proofs.«429100_j40699110096955_3_alg».proof.Proof.Spec
import proofs.«429100_j40699110096955_3_alg».proof.Proof.LibGatherScatter
import Idealize.ShloMosaic.Lib.IdealHost
import Idealize.ShloMosaic.Lib.ValueLayout
import Idealize.ShloMosaic.Lib.Pipeline.Value

noncomputable section

open scoped BigOperators

namespace Cert.ReferenceIdeal.RefValue

open Idealize.ShloMosaic Idealize.ShloMosaic.ValueIdx Idealize.ShloMosaic.GatherScatter Cert.ReferenceIdeal
open Cert.ReferenceIdeal.Facts₀

variable [Cert.ReferenceIdeal.Facts₀] [Cert.KernelIdeal.Facts₀]

/-- The reference's result as one term of its six arguments. -/
abbrev refTerm (x : FVec Ideal S262144x256 .f32) (ids : IVec S262144 32) (W1 : FVec Ideal S256x64 .f32) (b1 : FVec Ideal S64 .f32)
    (W2 : FVec Ideal S64x256 .f32) (b2 : FVec Ideal S256 .f32) : FVec Ideal S262144x256 .f32 :=
  mulf (Host.gather gather_S8x256_S262144x1_S262144x256_1_0_n_n_0_1_1256 (Host.divf (F := Ideal) (broadcastInDim S8x256 ![] bcast_S_S8x256 (constant (F := Ideal) S_ .f32 0x3F800000#32)) (addf (broadcastInDim S8x256 ![] bcast_S_S8x256 (constant (F := Ideal) S_ .f32 0x3F800000#32)) (Host.exp (F := Ideal) (Host.negf (F := Ideal) (addf (Host.dotGeneral (F := Ideal) dot_S8x64_S64x256_S8x256_1_0_0_1_n_n none (maximumf (addf (Host.dotGeneral (F := Ideal) dot_S8x256_S256x64_S8x64_1_0_0_1_n_n none (Host.divf (F := Ideal) (Host.scatterAdd (F := Ideal) scatter_S8x256_S262144x1_S262144x256_1_0_0_1 (broadcastInDim S8x256 ![] bcast_S_S8x256 (constant (F := Ideal) S_ .f32 0x00000000#32)) (broadcastInDim S262144x1 ![0] bcast_S262144_S262144x1_0 ids) x) (broadcastInDim S8x256 ![0, 1] bcast_S8x1_S8x256_0_1 (broadcastInDim S8x1 ![0] bcast_S8_S8x1_0 (maximumf (Host.scatterAdd (F := Ideal) scatter_S8_S262144x1_S262144_n_0_0_1 (broadcastInDim S8 ![] bcast_S_S8 (constant (F := Ideal) S_ .f32 0x00000000#32)) (broadcastInDim S262144x1 ![0] bcast_S262144_S262144x1_0 ids) (broadcastInDim S262144 ![] bcast_S_S262144 (constant (F := Ideal) S_ .f32 0x3F800000#32))) (broadcastInDim S8 ![] bcast_S_S8 (constant (F := Ideal) S_ .f32 0x3F800000#32)))))) W1) (broadcastInDim S8x64 ![0, 1] bcast_S1x64_S8x64_0_1 (broadcastInDim S1x64 ![1] bcast_S64_S1x64_1 b1))) (broadcastInDim S8x64 ![] bcast_S_S8x64 (constant (F := Ideal) S_ .f32 0x00000000#32))) W2) (broadcastInDim S8x256 ![0, 1] bcast_S1x256_S8x256_0_1 (broadcastInDim S1x256 ![1] bcast_S256_S1x256_1 b2))))))) (broadcastInDim S262144x1 ![0] bcast_S262144_S262144x1_0 (select (cmpi .slt ids (broadcastInDim S262144 ![] bcast_S_S262144 (constantI S_ 32 0#32))) (addi ids (broadcastInDim S262144 ![] bcast_S_S262144 (constantI S_ 32 8#32))) ids))) x

/-- The first scatter: the features' rows accumulated into the zero matrix `[8, 256]` at their ids. -/
abbrev refSums (x : FVec Ideal S262144x256 .f32) (ids : IVec S262144 32) : FVec Ideal S8x256 .f32 :=
  Host.scatterAdd (F := Ideal) scatter_S8x256_S262144x1_S262144x256_1_0_0_1 (broadcastInDim S8x256 ![] bcast_S_S8x256 (constant (F := Ideal) S_ .f32 0x00000000#32)) (broadcastInDim S262144x1 ![0] bcast_S262144_S262144x1_0 ids) x

/-- The second scatter: ones accumulated into the zero vector `[8]` at the ids. -/
abbrev refCounts (ids : IVec S262144 32) : FVec Ideal S8 .f32 :=
  Host.scatterAdd (F := Ideal) scatter_S8_S262144x1_S262144_n_0_0_1 (broadcastInDim S8 ![] bcast_S_S8 (constant (F := Ideal) S_ .f32 0x00000000#32)) (broadcastInDim S262144x1 ![0] bcast_S262144_S262144x1_0 ids) (broadcastInDim S262144 ![] bcast_S_S262144 (constant (F := Ideal) S_ .f32 0x3F800000#32))

/-- The ids as the gather takes them: a negative id moved up by eight. -/
abbrev wrapIds (ids : IVec S262144 32) : IVec S262144 32 :=
  select (cmpi .slt ids (broadcastInDim S262144 ![] bcast_S_S262144 (constantI S_ 32 0#32))) (addi ids (broadcastInDim S262144 ![] bcast_S_S262144 (constantI S_ 32 8#32))) ids

/-- The dense chain between the scatters and the gather is the excitation gate of the two scatters' results. -/
theorem refTerm_gate (x : FVec Ideal S262144x256 .f32) (ids : IVec S262144 32) (W1 : FVec Ideal S256x64 .f32) (b1 : FVec Ideal S64 .f32)
    (W2 : FVec Ideal S64x256 .f32) (b2 : FVec Ideal S256 .f32) :
    refTerm x ids W1 b1 W2 b2
      = mulf (Host.gather gather_S8x256_S262144x1_S262144x256_1_0_n_n_0_1_1256
          (Cert.KernelIdeal.Spec.gate (F := Ideal) (refSums x ids) (refCounts ids) W1 b1 W2 b2)
          (broadcastInDim S262144x1 ![0] bcast_S262144_S262144x1_0 (wrapIds ids))) x := rfl

/-! ## Words: an id in range -/

/-- A word that is not negative is not below zero in the signed order. -/
theorem slt_zero_of_nonneg (w : BitVec 32) (h : 0 ≤ w.toInt) : IntOp.cmpi .slt w 0#32 = 0#1 := by
  unfold IntOp.cmpi
  have hf : w.slt 0#32 = false := by
    simp only [BitVec.slt, BitVec.toInt_zero]
    exact decide_eq_false (not_lt.mpr h)
  rw [hf]
  rfl

/-- A word in `[0, 8)`, read signed and clamped into `[0, 7]`, is its own value (which is its value modulo eight). -/
theorem clampIdx (w : BitVec 32) (h0 : 0 ≤ w.toInt) (h8 : w.toInt < 8) : min w.toInt.toNat (8 - 1) = w.toNat % 8 := by
  have hlt := w.isLt
  rw [BitVec.toInt_eq_toNat_cond] at h0 h8 ⊢
  split_ifs at h0 h8 ⊢ <;> omega

/-! ## The index column, the scatters, the wrapped ids and the gather at an index -/

/-- A vector of words made a column `[262144, 1]` reads, at row `n`, the vector's element `n`. -/
theorem idxCol_apply (v : IVec S262144 32) (n : Fin 262144) :
    broadcastInDim S262144x1 ![0] bcast_S262144_S262144x1_0 v (ix2 n 0) = v (ix1 n) := by
  refine broadcastInDim_apply _ _ _ _ (ix1 n) fun a => ?_
  obtain rfl : a = 0 := Subsingleton.elim _ _
  rfl

/-- The first scatter is the per-batch column sums. -/
theorem refSums_eq (x : FVec Ideal S262144x256 .f32) (ids : IVec S262144 32) :
    refSums x ids = Cert.KernelIdeal.Spec.segSums x ids := by
  funext i
  obtain ⟨b, j, rfl⟩ : ∃ (b : Fin 8) (j : Fin 256), i = ix2 b j := ⟨i 0, i 1, eq_ix2 i⟩
  rw [Cert.KernelIdeal.Spec.segSums_apply]
  show Host.scatterAdd (F := Ideal) (φ := .f32) (rowScatterDims 8 256 262144 scatter_S8x256_S262144x1_S262144x256_1_0_0_1_wf) _ _ _ (ix2 b j) = _
  rw [rowScatterAdd_apply, broadcastInDim_scalar_apply, constant_apply, Ideal.ofBits_zero_f32, zero_add, Finset.sum_filter]
  unfold Cert.KernelIdeal.Spec.segSumAt
  refine Finset.sum_congr rfl fun n _ => ?_
  rw [idxCol_apply]

/-- The second scatter is the per-batch row counts. -/
theorem refCounts_eq (ids : IVec S262144 32) : refCounts ids = Cert.KernelIdeal.Spec.segCounts ids := by
  funext i
  obtain ⟨b, rfl⟩ : ∃ b : Fin 8, i = ix1 b := ⟨i 0, eq_ix1 i⟩
  rw [Cert.KernelIdeal.Spec.segCounts_apply]
  show Host.scatterAdd (F := Ideal) (φ := .f32) (vecScatterDims 8 262144 scatter_S8_S262144x1_S262144_n_0_0_1_wf) _ _ _ (ix1 b) = _
  rw [vecScatterAdd_apply, broadcastInDim_scalar_apply, constant_apply, Ideal.ofBits_zero_f32, zero_add, Finset.sum_filter]
  unfold Cert.KernelIdeal.Spec.segCountAt
  refine Finset.sum_congr rfl fun n _ => ?_
  rw [idxCol_apply, broadcastInDim_scalar_apply, constant_apply, Ideal.ofBits_one_f32]

/-- An id that is not negative is taken as it is. -/
theorem wrapIds_apply (ids : IVec S262144 32) (n : Fin 262144) (h0 : 0 ≤ (ids (ix1 n)).toInt) :
    wrapIds ids (ix1 n) = ids (ix1 n) := by
  show Scalar.select (IntOp.cmpi .slt (ids (ix1 n)) (broadcastInDim S262144 ![] bcast_S_S262144 (constantI S_ 32 0#32) (ix1 n))) _ _ = _
  rw [broadcastInDim_scalar_apply, constantI_apply, slt_zero_of_nonneg _ h0, select_zero]

/-- The gather reads, at `(n, j)`, column `j` of the operand's row `r` when the start index `idx[n, 0]`, read signed and
    clamped into `[0, 7]`, is `r`. -/
theorem gatherRows_apply (y : FVec Ideal S8x256 .f32) (idx : IVec S262144x1 32) (n : Fin 262144) (j : Fin 256) (r : Fin 8)
    (hr : min (idx (ix2 n 0)).toInt.toNat (8 - 1) = r.val) :
    Host.gather gather_S8x256_S262144x1_S262144x256_1_0_n_n_0_1_1256 y idx (ix2 n j) = y (ix2 r j) := by
  show Host.gather (rowGatherDims 8 256 262144 gather_S8x256_S262144x1_S262144x256_1_0_n_n_0_1_1256_wf) y idx (ix2 n j) = _
  rw [rowGather_apply (by decide)]
  exact congrArg (fun r : Fin 8 => y (ix2 r j)) (Fin.ext hr)

/-! ## The reference's value -/

/-- THE REFERENCE'S RESULT IS THE LAYER'S VALUE when every id lies in `[0, 8)`. -/
theorem refTerm_eq (x : FVec Ideal S262144x256 .f32) (ids : IVec S262144 32) (W1 : FVec Ideal S256x64 .f32) (b1 : FVec Ideal S64 .f32)
    (W2 : FVec Ideal S64x256 .f32) (b2 : FVec Ideal S256 .f32)
    (hr : ∀ n : Fin 262144, 0 ≤ (ids (ix1 n)).toInt ∧ (ids (ix1 n)).toInt < 8) :
    refTerm x ids W1 b1 W2 b2 = Cert.KernelIdeal.Spec.result x ids W1 b1 W2 b2 := by
  rw [refTerm_gate, refSums_eq, refCounts_eq]
  funext i
  obtain ⟨n, j, rfl⟩ : ∃ (n : Fin 262144) (j : Fin 256), i = ix2 n j := ⟨i 0, i 1, eq_ix2 i⟩
  rw [Cert.KernelIdeal.Spec.result_apply, mulf_apply,
    gatherRows_apply _ _ n j (Cert.KernelIdeal.Spec.rowOf (ids (ix1 n)))
      (by rw [idxCol_apply, wrapIds_apply ids n (hr n).1]; exact clampIdx _ (hr n).1 (hr n).2)]
  rfl

end Cert.ReferenceIdeal.RefValue

end
-- ==== Proof.PreRange.lean ====
/-
  The range of the batch ids, read back from the precondition.

  The precondition is a conjunction of one-bit words: five "every entry is finite" tests and, last, the test that every
  id lies in [0, 8), written as an "and" over the 262144 entries of (ids ≥ 0) ∧ (ids < 8), both compares signed. When the
  whole predicate is the word 1, its last conjunct is 1, so the "and" over the entries is 1, so each entry's bit is 1, so
  both signed compares hold at each entry: 0 ≤ ids n and ids n < 8, the ids read as signed integers.
-/
import proofs.«429100_j40699110096955_3_alg».proof.Pre_finite_inputs
import proofs.«429100_j40699110096955_3_alg».proof.Proof.Gen.Pre_finite_inputs
import Idealize.ShloMosaic.Lib.ValueIdx
import Idealize.ShloMosaic.Lib.ReduceAll
import Idealize.ShloMosaic.Lib.StableHlo.Predicate

namespace Cert.Proof.PreRange

open Idealize.ShloMosaic Idealize.ShloMosaic.ValueIdx

/-- A rank-0 shape has exactly one index. -/
instance : Subsingleton Cert.Pre_finite_inputs.S_.Idx := ⟨fun _ _ => funext fun d => d.elim0⟩

/-- A scalar constant broadcast along the ids reads the constant at every entry. -/
theorem bcast_const_apply (c : BitVec 32) (n : Fin 262144) :
    broadcastInDim Cert.Pre_finite_inputs.S262144 ![] Cert.Pre_finite_inputs.Facts.bcast_S_S262144
      (constantI Cert.Pre_finite_inputs.S_ 32 c) (ix1 n) = c := rfl

/-- Every id, read signed, lies in [0, 8) when the precondition holds. -/
theorem ids_in_range {F : FTy → Type} [FloatOps F]
    (a0 : FVec F Cert.Pre_finite_inputs.S262144x256 .f32) (a1 : IVec Cert.Pre_finite_inputs.S262144 32)
    (a2 : FVec F Cert.Pre_finite_inputs.S256x64 .f32) (a3 : FVec F Cert.Pre_finite_inputs.S64 .f32)
    (a4 : FVec F Cert.Pre_finite_inputs.S64x256 .f32) (a5 : FVec F Cert.Pre_finite_inputs.S256 .f32)
    (h : Cert.Pre_finite_inputs.fn (F := F) a0 a1 a2 a3 a4 a5 = fun _ => 1#1) (n : Fin 262144) :
    0 ≤ (a1 (ix1 n)).toInt ∧ (a1 (ix1 n)).toInt < 8 := by
  -- the predicate's one word is 1
  have h0 := congrFun h ValueIdx.ix0
  dsimp only [Cert.Pre_finite_inputs.fn, Cert.Pre_finite_inputs.fn_part1] at h0
  -- its last conjunct, the "and" over all entries, is 1
  have hall := (IntOp.andi_eq_one.1 h0).2
  -- so the bit of entry n is 1
  have hn := Host.reduce_andi_all _ _ _ _ _ hall (ix1 n)
  -- and both compares hold there
  obtain ⟨hge, hlt⟩ := IntOp.andi_eq_one.1 hn
  have hge' := IntOp.cmpi_sge.1 hge
  have hlt' := IntOp.cmpi_slt.1 hlt
  rw [bcast_const_apply] at hge' hlt'
  exact ⟨by simpa using hge', by simpa using hlt'⟩

end Cert.Proof.PreRange
-- ==== Proof.lean ====
/-
  The certificate of the squeeze-and-excite layer over a batched point set: a two-launch kernel against its jnp
  reference, equal over the extended reals wherever every batch id lies in `[0, 8)` (outside that range the reference
  itself indexes the eight-row gate out of range, and the precondition says so).

  Both programs compute, for features `x : [262144, 256]` and ids `ids : [262144]`: the per-batch column sums and row
  counts, the excitation gate of them (mean, dense layer, rectifier, dense layer, logistic), and row `n` of `x` scaled by
  the gate's row of `ids n`. The reference does it with two accumulating scatters and a gather; the kernel with a
  membership table of zeros and ones — a first launch accumulating `tableᵀ · x` tile by tile into one resident block per
  half of the rows, and a second launch picking the gate's row by two small products `table · y_hi + table · y_lo`,
  where `y_hi` is the gate narrowed and `y_lo` the narrowed remainder. Over the extended reals narrowing is the identity,
  so `y_lo` is the gate minus itself: zero, because the logistic function is real-valued at every extended real; a
  product with a zero or a one of the table is exact at the infinities too; and finite sums may be regrouped freely.
  So no finiteness of the features or weights is used — only the range of the ids.

  * the three frames: the two kernels' are the generated ones; the reference's is its generated run with the result
    dropped;
  * the idealization rewrote nothing: `preserves` is `True`;
  * `algebraic`: the kernel's run ends with the result array at `Spec.result` of the arguments (`KValue.run`), the
    reference's generated run at a term that is `Spec.result` of arguments that agree (`RefValue.refTerm_eq`); the
    ids' range comes from the precondition (`PreRange.ids_in_range`).
-/
import proofs.«429100_j40699110096955_3_alg».proof.Defs
import proofs.«429100_j40699110096955_3_alg».proof.Proof.Gen.Kernel
import proofs.«429100_j40699110096955_3_alg».proof.Proof.Gen.Kernel.Skeleton
import proofs.«429100_j40699110096955_3_alg».proof.Proof.Gen.Kernel.Launch
import proofs.«429100_j40699110096955_3_alg».proof.Proof.Gen.Kernel.Points
import proofs.«429100_j40699110096955_3_alg».proof.Proof.Gen.Kernel.Frame
import proofs.«429100_j40699110096955_3_alg».proof.Proof.Gen.KernelIdeal
import proofs.«429100_j40699110096955_3_alg».proof.Proof.Gen.KernelIdeal.Skeleton
import proofs.«429100_j40699110096955_3_alg».proof.Proof.Gen.KernelIdeal.Launch
import proofs.«429100_j40699110096955_3_alg».proof.Proof.Gen.KernelIdeal.Points
import proofs.«429100_j40699110096955_3_alg».proof.Proof.Gen.KernelIdeal.Frame
import proofs.«429100_j40699110096955_3_alg».proof.Proof.Gen.ReferenceIdeal
import proofs.«429100_j40699110096955_3_alg».proof.Proof.Gen.ReferenceIdeal.Run
import proofs.«429100_j40699110096955_3_alg».proof.Proof.Gen.Pre_finite_inputs
import proofs.«429100_j40699110096955_3_alg».proof.Proof.KValue
import proofs.«429100_j40699110096955_3_alg».proof.Proof.RefValue
import proofs.«429100_j40699110096955_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched: the generated frame. -/
theorem frame_k : Cert.frame_Kernel := fun m ρ _ => Cert.Kernel.Gen.frame m ρ

/-- The idealized kernel runs and leaves its arguments as launched: the generated frame. -/
theorem frame_ki : Cert.frame_KernelIdeal := fun m ρ _ => Cert.KernelIdeal.Gen.frame m ρ

/-- The idealized reference runs and leaves its arguments as launched: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals, from memories agreeing on the arguments and with every id in `[0, 8)`, both programs end
    with the layer's value in their result arrays. -/
theorem algebraic : Cert.algebraic_KernelIdeal_ReferenceIdeal := by
  intro m ρ m' ρ' hpre hagree
  have hr : ∀ (c : Dev Cert.KernelIdeal.nD) (n : Fin 262144),
      0 ≤ ((m ((c : Thread Cert.KernelIdeal.nD Cert.KernelIdeal.τ).loc Cert.KernelIdeal.main_arg1)) (ix1 n)).toInt
        ∧ ((m ((c : Thread Cert.KernelIdeal.nD Cert.KernelIdeal.τ).loc Cert.KernelIdeal.main_arg1)) (ix1 n)).toInt < 8 :=
    fun c n => Cert.Proof.PreRange.ids_in_range _ _ _ _ _ _ (hpre c) n
  refine ⟨_, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.refTerm_eq _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
